-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x1024x1024 : Shape := ⟨4, ![16, 2, 1024, 1024]⟩
abbrev S16x1024x1024 : Shape := ⟨3, ![16, 1024, 1024]⟩
abbrev S_ : Shape := ⟨0, ![]⟩

class Facts : Prop where
  bcast_S_S16x2x1024x1024 : S_.BroadcastsInDim S16x2x1024x1024 (![] : Fin 0 → Fin S16x2x1024x1024.rank)
  reducesTo_S16x2x1024x1024_S_d0_1_2_3 : S16x2x1024x1024.ReducesTo [0, 1, 2, 3] S_
  h_S_ : 0 < S_.numel

variable [Facts]

def fn {F : FTy → Type} [FloatOps F] (main_arg0 : FVec F S16x2x1024x1024 .f32) (main_arg1 : IVec S16x1024x1024 32) : IVec S_ 1 :=
  let main_v0 : FVec F S16x2x1024x1024 .f32 := Host.absf main_arg0
  let main_cst : FVec F S_ .f32 := constant S_ .f32 0x7F800000#32
  let main_v1 : FVec F S16x2x1024x1024 .f32 := broadcastInDim S16x2x1024x1024 ![] bcast_S_S16x2x1024x1024 main_cst
  let main_v2 : IVec S16x2x1024x1024 1 := cmpf .olt main_v0 main_v1
  let main_c : IVec S_ 1 := constantI S_ 1 1#1
  let main_v3 : IVec S_ 1 := (fun x v => Host.reduce IntOp.andi x v reducesTo_S16x2x1024x1024_S_d0_1_2_3 h_S_) main_v2 main_c
  main_v3
-- ==== Kernel.lean ====
abbrev S16x2x1024x1024 : Shape := ⟨4, ![16, 2, 1024, 1024]⟩
abbrev S16x1024x1024 : Shape := ⟨3, ![16, 1024, 1024]⟩
abbrev S1x1024x1024 : Shape := ⟨3, ![1, 1024, 1024]⟩
abbrev S1024x1024 : Shape := ⟨2, ![1024, 1024]⟩
abbrev S1024x2 : Shape := ⟨2, ![1024, 2]⟩
abbrev S1024x1028 : Shape := ⟨2, ![1024, 1028]⟩
abbrev S2x1024 : Shape := ⟨2, ![2, 1024]⟩
abbrev S1028x1024 : Shape := ⟨2, ![1028, 1024]⟩
abbrev S16x4x8x128 : Shape := ⟨4, ![16, 4, 8, 128]⟩
abbrev S1x2x256x1024 : Shape := ⟨4, ![1, 2, 256, 1024]⟩
abbrev S1x256x1024 : Shape := ⟨3, ![1, 256, 1024]⟩
abbrev S1x1x8x128 : Shape := ⟨4, ![1, 1, 8, 128]⟩
abbrev S1x1x256x1024 : Shape := ⟨4, ![1, 1, 256, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S8x128 : Shape := ⟨2, ![8, 128]⟩
abbrev S_ : Shape := ⟨0, ![]⟩
abbrev S16x4 : Shape := ⟨2, ![16, 4]⟩

abbrev nBuf : Space → Nat
  | .hbm => 27
  | .vmem => 14
  | .smem => 0
  | _ => 0

abbrev bufTy : (tb : Table) → Fin (tcTables nBuf tb) → BufTy
  | .hbm, ⟨0, _⟩ => ⟨S16x2x1024x1024, .f32⟩
  | .hbm, ⟨1, _⟩ => ⟨S16x1024x1024, .i32⟩
  | .hbm, ⟨2, _⟩ => ⟨S16x1024x1024, .f32⟩
  | .hbm, ⟨3, _⟩ => ⟨S16x4x8x128, .f32⟩
  | .hbm, ⟨4, _⟩ => ⟨S16x4x8x128, .f32⟩
  | .hbm, ⟨5, _⟩ => ⟨S_, .f32⟩
  | .hbm, ⟨6, _⟩ => ⟨S16x4, .f32⟩
  | .hbm, ⟨7, _⟩ => ⟨S_, .f32⟩
  | .hbm, ⟨8, _⟩ => ⟨S16x4, .f32⟩
  | .hbm, ⟨9, _⟩ => ⟨S16x4, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x4, .f32⟩
  | .hbm, ⟨14, _⟩ => ⟨S_, .f32⟩
  | .hbm, ⟨15, _⟩ => ⟨S16x4, .f32⟩
  | .hbm, ⟨16, _⟩ => ⟨S16x4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x1024x1024, .i32⟩
  | .local _ .vmem, ⟨1, _⟩ => ⟨S1x1024x1024, .i32⟩
  | .local _ .vmem, ⟨2, _⟩ => ⟨S1x1024x1024, .f32⟩
  | .local _ .vmem, ⟨3, _⟩ => ⟨S1x1024x1024, .f32⟩
  | .local _ .vmem, ⟨4, _⟩ => ⟨S1x2x256x1024, .f32⟩
  | .local _ .vmem, ⟨5, _⟩ => ⟨S1x2x256x1024, .f32⟩
  | .local _ .vmem, ⟨6, _⟩ => ⟨S1x256x1024, .i32⟩
  | .local _ .vmem, ⟨7, _⟩ => ⟨S1x256x1024, .i32⟩
  | .local _ .vmem, ⟨8, _⟩ => ⟨S1x256x1024, .f32⟩
  | .local _ .vmem, ⟨9, _⟩ => ⟨S1x256x1024, .f32⟩
  | .local _ .vmem, ⟨10, _⟩ => ⟨S1x1x8x128, .f32⟩
  | .local _ .vmem, ⟨11, _⟩ => ⟨S1x1x8x128, .f32⟩
  | .local _ .vmem, ⟨12, _⟩ => ⟨S1x1x8x128, .f32⟩
  | .local _ .vmem, ⟨13, _⟩ => ⟨S1x1x8x128, .f32⟩
  | _, _ => ⟨S16x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_cst_6 : Ref sig .tc := ⟨.hbm, 21, rfl⟩
abbrev main_v11 : Ref sig .tc := ⟨.hbm, 22, rfl⟩
abbrev main_v12 : Ref sig .tc := ⟨.hbm, 23, rfl⟩
abbrev main_cst_7 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  concatenates_S1024x2_S1024x1024_S1024x2_S1024x1028_d1 : Shape.Concatenates [S1024x2, S1024x1024, S1024x2] S1024x1028 1
  slices_S1024x1028_o0_0_S1024x1024 : S1024x1028.Slices ![0, 0] S1024x1024
  slices_S1024x1028_o0_1_S1024x1024 : S1024x1028.Slices ![0, 1] S1024x1024
  slices_S1024x1028_o0_2_S1024x1024 : S1024x1028.Slices ![0, 2] S1024x1024
  slices_S1024x1028_o0_3_S1024x1024 : S1024x1028.Slices ![0, 3] S1024x1024
  slices_S1024x1028_o0_4_S1024x1024 : S1024x1028.Slices ![0, 4] S1024x1024
  concatenates_S2x1024_S1024x1024_S2x1024_S1028x1024_d0 : Shape.Concatenates [S2x1024, S1024x1024, S2x1024] S1028x1024 0
  slices_S1028x1024_o0_0_S1024x1024 : S1028x1024.Slices ![0, 0] S1024x1024
  slices_S1028x1024_o1_0_S1024x1024 : S1028x1024.Slices ![1, 0] S1024x1024
  slices_S1028x1024_o2_0_S1024x1024 : S1028x1024.Slices ![2, 0] S1024x1024
  slices_S1028x1024_o3_0_S1024x1024 : S1028x1024.Slices ![3, 0] S1024x1024
  slices_S1028x1024_o4_0_S1024x1024 : S1028x1024.Slices ![4, 0] S1024x1024
  shapeCasts_S1024x1024_S1x1024x1024 : S1024x1024.ShapeCasts S1x1024x1024
  inb_S1x2x256x1024_S1x1x256x1024_0_0_0_0 : ∀ a, (![0, 0, 0, 0] : Fin 4 → Nat) a + S1x1x256x1024.size a ≤ S1x2x256x1024.size a
  h_S1x1x256x1024 : 0 < S1x1x256x1024.numel
  shapeCasts_S1x1x256x1024_S256x1024 : S1x1x256x1024.ShapeCasts S256x1024
  inb_S1x2x256x1024_S1x1x256x1024_0_1_0_0 : ∀ a, (![0, 1, 0, 0] : Fin 4 → Nat) a + S1x1x256x1024.size a ≤ S1x2x256x1024.size a
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  reducesTo_S16x4x8x128_S16x4_d2_3 : S16x4x8x128.ReducesTo [2, 3] S16x4
  h_S_ : 0 < S_.numel
  bcast_S_S16x4 : S_.BroadcastsInDim S16x4 (![] : Fin 0 → Fin S16x4.rank)
  reducesTo_S16x4_S_d0_1 : S16x4.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .i32 = 32 ∨ (Rect.block (s := S16x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x256x1024.size a ≤ S16x2x1024x1024.size a
  hwx1_0 : ∀ i : grid1.Coords, EltTy.bits .f32 = 32 ∨ (Rect.block (s := S16x2x1024x1024) S1x2x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S16x1024x1024.size a
  hwx1_1 : ∀ i : grid1.Coords, EltTy.bits .i32 = 32 ∨ (Rect.block (s := S16x1024x1024) S1x256x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S16x1024x1024.size a
  hwx1_2 : ∀ i : grid1.Coords, EltTy.bits .f32 = 32 ∨ (Rect.block (s := S16x1024x1024) S1x256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x8x128.size a ≤ S16x4x8x128.size a
  hwx1_3 : ∀ i : grid1.Coords, EltTy.bits .f32 = 32 ∨ (Rect.block (s := S16x4x8x128) S1x1x8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x8x128.size a ≤ S16x4x8x128.size a
  hwx1_4 : ∀ i : grid1.Coords, EltTy.bits .f32 = 32 ∨ (Rect.block (s := S16x4x8x128) S1x1x8x128.size (cc1_transform_4 i) (hinb1_4 i)).WholeWords (EltTy.packing .f32)

variable [Facts₀]

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x2x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x1x8x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x1x8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2x1024x1024 : Shape := ⟨4, ![16, 2, 1024, 1024]⟩
abbrev S16x1024x1024 : Shape := ⟨3, ![16, 1024, 1024]⟩
abbrev S_ : Shape := ⟨0, ![]⟩
abbrev S16x1x1024x1024 : Shape := ⟨4, ![16, 1, 1024, 1024]⟩
abbrev S16x1x1024x1024x1 : Shape := ⟨5, ![16, 1, 1024, 1024, 1]⟩
abbrev S1 : Shape := ⟨1, ![1]⟩
abbrev S1x1x1x1x1 : Shape := ⟨5, ![1, 1, 1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16x2x1024x1024, .f32⟩
  | .hbm, ⟨1, _⟩ => ⟨S16x1024x1024, .i32⟩
  | .hbm, ⟨2, _⟩ => ⟨S_, .f32⟩
  | .hbm, ⟨3, _⟩ => ⟨S16x1024x1024, .f32⟩
  | .hbm, ⟨4, _⟩ => ⟨S_, .f32⟩
  | .hbm, ⟨5, _⟩ => ⟨S16x1024x1024, .f32⟩
  | .hbm, ⟨6, _⟩ => ⟨S16x1024x1024, .f32⟩
  | .hbm, ⟨7, _⟩ => ⟨S16x1x1024x1024, .f32⟩
  | .hbm, ⟨8, _⟩ => ⟨S16x2x1024x1024, .f32⟩
  | .hbm, ⟨9, _⟩ => ⟨S16x2x1024x1024, .f32⟩
  | .hbm, ⟨10, _⟩ => ⟨S16x2x1024x1024, .f32⟩
  | .hbm, ⟨11, _⟩ => ⟨S_, .f32⟩
  | .hbm, ⟨12, _⟩ => ⟨S16x1024x1024, .f32⟩
  | .hbm, ⟨13, _⟩ => ⟨S16x1x1024x1024, .f32⟩
  | .hbm, ⟨14, _⟩ => ⟨S16x1x1024x1024, .f32⟩
  | .hbm, ⟨15, _⟩ => ⟨S16x2x1024x1024, .f32⟩
  | .hbm, ⟨16, _⟩ => ⟨S16x2x1024x1024, .f32⟩
  | .hbm, ⟨17, _⟩ => ⟨S_, .i32⟩
  | .hbm, ⟨18, _⟩ => ⟨S16x1024x1024, .i32⟩
  | .hbm, ⟨19, _⟩ => ⟨S16x1024x1024, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S16x1024x1024, .i32⟩
  | .hbm, ⟨24, _⟩ => ⟨S16x1024x1024, .i32⟩
  | .hbm, ⟨25, _⟩ => ⟨S_, .i32⟩
  | .hbm, ⟨26, _⟩ => ⟨S16x1024x1024, .i32⟩
  | .hbm, ⟨27, _⟩ => ⟨S16x1024x1024, .i32⟩
  | .hbm, ⟨28, _⟩ => ⟨S16x1x1024x1024, .i32⟩
  | .hbm, ⟨29, _⟩ => ⟨S_, .i32⟩
  | .hbm, ⟨30, _⟩ => ⟨S16x1x1024x1024, .i32⟩
  | .hbm, ⟨31, _⟩ => ⟨S16x1x1024x1024, .i1⟩
  | .hbm, ⟨32, _⟩ => ⟨S_, .i32⟩
  | .hbm, ⟨33, _⟩ => ⟨S16x1x1024x1024, .i32⟩
  | .hbm, ⟨34, _⟩ => ⟨S16x1x1024x1024, .i32⟩
  | .hbm, ⟨35, _⟩ => ⟨S16x1x1024x1024, .i32⟩
  | .hbm, ⟨36, _⟩ => ⟨S16x1x1024x1024x1, .i32⟩
  | .hbm, ⟨37, _⟩ => ⟨S1, .i32⟩
  | .hbm, ⟨38, _⟩ => ⟨S_, .i32⟩
  | .hbm, ⟨39, _⟩ => ⟨S16x1x1024x1024x1, .i32⟩
  | .hbm, ⟨40, _⟩ => ⟨S16x1x1024x1024x1, .i1⟩
  | .hbm, ⟨41, _⟩ => ⟨S1x1x1x1x1, .i32⟩
  | .hbm, ⟨42, _⟩ => ⟨S16x1x1024x1024x1, .i32⟩
  | .hbm, ⟨43, _⟩ => ⟨S16x1x1024x1024x1, .i1⟩
  | .hbm, ⟨44, _⟩ => ⟨S16x1x1024x1024x1, .i1⟩
  | .hbm, ⟨45, _⟩ => ⟨S_, .i1⟩
  | .hbm, ⟨46, _⟩ => ⟨S16x1x1024x1024, .i1⟩
  | .hbm, ⟨47, _⟩ => ⟨S16x1x1024x1024, .f32⟩
  | .hbm, ⟨48, _⟩ => ⟨S_, .f32⟩
  | .hbm, ⟨49, _⟩ => ⟨S16x1x1024x1024, .f32⟩
  | .hbm, ⟨50, _⟩ => ⟨S16x1x1024x1024, .f32⟩
  | .hbm, ⟨51, _⟩ => ⟨S16x1024x1024, .f32⟩
  | .hbm, ⟨52, _⟩ => ⟨S16x1024x1024, .f32⟩
  | .hbm, ⟨53, _⟩ => ⟨S_, .f32⟩
  | .hbm, ⟨54, _⟩ => ⟨S_, .f32⟩
  | .hbm, ⟨55, _⟩ => ⟨S16x1024x1024, .f32⟩
  | .hbm, ⟨56, _⟩ => ⟨S16x1024x1024, .f32⟩
  | .hbm, ⟨57, _⟩ => ⟨S_, .i32⟩
  | .hbm, ⟨58, _⟩ => ⟨S16x1024x1024, .i32⟩
  | .hbm, ⟨59, _⟩ => ⟨S16x1024x1024, .i1⟩
  | .hbm, ⟨60, _⟩ => ⟨S16x1024x1024, .f32⟩
  | .hbm, ⟨61, _⟩ => ⟨S_, .f32⟩
  | .hbm, ⟨62, _⟩ => ⟨S_, .f32⟩
  | .hbm, ⟨63, _⟩ => ⟨S16x1024x1024, .f32⟩
  | .hbm, ⟨64, _⟩ => ⟨S_, .f32⟩
  | .hbm, ⟨65, _⟩ => ⟨S_, .f32⟩
  | .hbm, ⟨66, _⟩ => ⟨S16x1024x1024, .f32⟩
  | .hbm, ⟨67, _⟩ => ⟨S16x1024x1024, .f32⟩
  | .hbm, ⟨68, _⟩ => ⟨S_, .f32⟩
  | .hbm, ⟨69, _⟩ => ⟨S16x1024x1024, .f32⟩
  | .hbm, ⟨70, _⟩ => ⟨S16x1024x1024, .f32⟩
  | .hbm, ⟨71, _⟩ => ⟨S_, .f32⟩
  | .hbm, ⟨72, _⟩ => ⟨S16x1024x1024, .f32⟩
  | .hbm, ⟨73, _⟩ => ⟨S16x1024x1024, .f32⟩
  | .hbm, ⟨74, _⟩ => ⟨S16x1024x1024, .f32⟩
  | .hbm, ⟨75, _⟩ => ⟨S16x1024x1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S16x1024x1024, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v3 : Ref sig .tc := ⟨.hbm, 27, rfl⟩
abbrev main_v4 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst : Ref sig .tc := ⟨.hbm, 53, rfl⟩
abbrev main_call3_v0 : Ref sig .tc := ⟨.hbm, 54, rfl⟩
abbrev main_call3_v1 : Ref sig .tc := ⟨.hbm, 55, rfl⟩
abbrev main_v8 : Ref sig .tc := ⟨.hbm, 56, rfl⟩
abbrev main_c_2 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst_3 : Ref sig .tc := ⟨.hbm, 61, rfl⟩
abbrev main_v12 : Ref sig .tc := ⟨.hbm, 62, rfl⟩
abbrev main_v13 : Ref sig .tc := ⟨.hbm, 63, rfl⟩
abbrev main_cst_4 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_5 : Ref sig .tc := ⟨.hbm, 68, rfl⟩
abbrev main_v17 : Ref sig .tc := ⟨.hbm, 69, rfl⟩
abbrev main_v18 : Ref sig .tc := ⟨.hbm, 70, rfl⟩
abbrev main_cst_6 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_7 : Ref sig .tc := ⟨.hbm, 76, rfl⟩
abbrev main_v23 : Ref sig .tc := ⟨.hbm, 77, rfl⟩
abbrev main_cst_8 : Ref sig .tc := ⟨.hbm, 78, rfl⟩
abbrev main_v24 : Ref sig .tc := ⟨.hbm, 79, rfl⟩
abbrev main_v25 : Ref sig .tc := ⟨.hbm, 80, rfl⟩
abbrev main_cst_9 : Ref sig .tc := ⟨.hbm, 81, rfl⟩
abbrev main_v26 : Ref sig .tc := ⟨.hbm, 82, rfl⟩
abbrev main_cst_10 : Ref sig .tc := ⟨.hbm, 83, rfl⟩
abbrev main_v27 : Ref sig .tc := ⟨.hbm, 84, rfl⟩
abbrev main_v28 : Ref sig .tc := ⟨.hbm, 85, rfl⟩
abbrev main_cst_11 : Ref sig .tc := ⟨.hbm, 86, rfl⟩
abbrev main_v29 : Ref sig .tc := ⟨.hbm, 87, rfl⟩
abbrev main_cst_12 : Ref sig .tc := ⟨.hbm, 88, rfl⟩
abbrev main_v30 : Ref sig .tc := ⟨.hbm, 89, rfl⟩
abbrev main_v31 : Ref sig .tc := ⟨.hbm, 90, rfl⟩

abbrev nD : Nat := 1
abbrev τ : Topo := Topo.v7x

variable {F : FTy → Type} [FloatOps F]

class Facts₀ : Prop where
  reducesTo_S16x2x1024x1024_S16x1024x1024_d1 : S16x2x1024x1024.ReducesTo [1] S16x1024x1024
  h_S_ : 0 < S_.numel
  bcast_S_S16x1024x1024 : S_.BroadcastsInDim S16x1024x1024 (![] : Fin 0 → Fin S16x1024x1024.rank)
  bcast_S16x1024x1024_S16x1x1024x1024_0_2_3 : S16x1024x1024.BroadcastsInDim S16x1x1024x1024 (![0, 2, 3] : Fin 3 → Fin S16x1x1024x1024.rank)
  bcast_S16x1x1024x1024_S16x2x1024x1024_0_1_2_3 : S16x1x1024x1024.BroadcastsInDim S16x2x1024x1024 (![0, 1, 2, 3] : Fin 4 → Fin S16x2x1024x1024.rank)
  bcast_S_S16x1x1024x1024 : S_.BroadcastsInDim S16x1x1024x1024 (![] : Fin 0 → Fin S16x1x1024x1024.rank)
  shapeCasts_S16x1x1024x1024_S16x1x1024x1024x1 : S16x1x1024x1024.ShapeCasts S16x1x1024x1024x1
  bcast_S_S16x1x1024x1024x1 : S_.BroadcastsInDim S16x1x1024x1024x1 (![] : Fin 0 → Fin S16x1x1024x1024x1.rank)
  bcast_S1_S1x1x1x1x1_4 : S1.BroadcastsInDim S1x1x1x1x1 (![4] : Fin 1 → Fin S1x1x1x1x1.rank)
  bcast_S1x1x1x1x1_S16x1x1024x1024x1_0_1_2_3_4 : S1x1x1x1x1.BroadcastsInDim S16x1x1024x1024x1 (![0, 1, 2, 3, 4] : Fin 5 → Fin S16x1x1024x1024x1.rank)
  reducesTo_S16x1x1024x1024x1_S16x1x1024x1024_d4 : S16x1x1024x1024x1.ReducesTo [4] S16x1x1024x1024
  shapeCasts_S16x1x1024x1024_S16x1024x1024 : S16x1x1024x1024.ShapeCasts S16x1024x1024
  bcast_S_S_ : S_.BroadcastsInDim S_ (![] : Fin 0 → Fin S_.rank)
  reduceWindows_S16x1024x1024_S16x1024x1024_w1s1p0_0_w5s1p2_2_w5s1p2_2 : S16x1024x1024.ReduceWindows (![1, 5, 5] : Fin 3 → Nat) ![1, 1, 1] ![0, 2, 2] ![0, 2, 2] S16x1024x1024
  reducesTo_S16x1024x1024_S_d0_1_2 : S16x1024x1024.ReducesTo [0, 1, 2] S_
  gather_S16x2x1024x1024_S16x1x1024x1024x1_S16x1x1024x1024_n_1_023_023_1_4_1111_wf : GatherDims.WF S16x2x1024x1024 S16x1x1024x1024x1 S16x1x1024x1024 [] [1] [0, 2, 3] [1] [0, 2, 3] 4 ![1, 1, 1, 1]

variable [Facts₀]

def gather_S16x2x1024x1024_S16x1x1024x1024x1_S16x1x1024x1024_n_1_023_023_1_4_1111 : GatherDims S16x2x1024x1024 S16x1x1024x1024x1 S16x1x1024x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x2x1024x1024_S16x1x1024x1024x1_S16x1x1024x1024_n_1_023_023_1_4_1111_wf

class Facts : Prop extends Facts₀ where

variable [Facts]
-- ==== Proof.Spec.lean ====
/-
  The boundary-weighted two-class cross-entropy as functions of the two argument arrays, over the extended reals.

  `targets` is an array of labels over 16 images of 1024 × 1024 pixels; `inputs` holds two logits per pixel.
  * `road` is the indicator of the label 1. `dil` / `ero` are its 5 × 5 dilation and erosion: the supremum /
    infimum of `road` over the window positions that fall inside the image (a position outside contributes the
    lattice's bottom / top, which is what padding with the operation's identity means). `weight` is
    `1 + (dil − ero) · 1`.
  * Per pixel, with `M = max x₀ x₁` and `S = exp (x₀ − M) + exp (x₁ − M)`, the cross-entropy against the label
    clipped to {0, 1} is written in two ways: `ceK = (M + log S) − x_t` and `ceR = −((x_t − M) − log S)`. They agree
    on finite logits (`ceK_eq_ceR`, proved elsewhere); a pixel whose label is 255 counts zero.
  * `pnum` / `pden` are the sums over one tile of 256 rows of the weighted cross-entropy and of the valid
    pixels; `numK`, `denK` add the 16 × 4 tiles. `LK` is the loss from those; `LR` is the loss from sums over all
    pixels at once, the numerator multiplied once more by the validity indicator.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The logits' shape, the labels' shape, and the shape of the per-tile partial results. -/
abbrev SX : Shape := ⟨4, ![16, 2, 1024, 1024]⟩
abbrev ST : Shape := ⟨3, ![16, 1024, 1024]⟩
abbrev SP : Shape := ⟨4, ![16, 4, 8, 128]⟩

/-- The float literals both programs share, kept as patterns: 1.0 and 2²⁴ (the pixel count). -/
abbrev one32 : EReal := Ideal.ofBits .f32 0x3F800000#32
abbrev cPix : EReal := Ideal.ofBits .f32 0x4B800000#32

/-! ## The boundary weight -/

/-- 1 at the label 1, else 0. -/
def road (t : BitVec 32) : EReal := if t = 1#32 then 1 else 0

/-- Window offset `i` (of 5, centred: offset 2 is the pixel itself) at coordinate `r` stays on an axis of 1024. -/
def inAxis (r : Fin 1024) (i : Fin 5) : Prop := 2 ≤ r.val + i.val ∧ r.val + i.val < 1026

instance (r : Fin 1024) (i : Fin 5) : Decidable (inAxis r i) := by unfold inAxis; infer_instance

/-- The coordinate that offset names. -/
def shift (r : Fin 1024) (i : Fin 5) (h : inAxis r i) : Fin 1024 := ⟨r.val + i.val - 2, by unfold inAxis at h; omega⟩

/-- The 5 × 5 dilation of an image `f` at a pixel: the supremum over the window positions inside the image. -/
def dilOf (f : Fin 1024 → Fin 1024 → EReal) (r c : Fin 1024) : EReal :=
  Finset.univ.sup fun ij : Fin 5 × Fin 5 =>
    if h : inAxis r ij.1 ∧ inAxis c ij.2 then f (shift r ij.1 h.1) (shift c ij.2 h.2) else ⊥

/-- The 5 × 5 erosion of an image `f` at a pixel: the infimum over the window positions inside the image. -/
def eroOf (f : Fin 1024 → Fin 1024 → EReal) (r c : Fin 1024) : EReal :=
  Finset.univ.inf fun ij : Fin 5 × Fin 5 =>
    if h : inAxis r ij.1 ∧ inAxis c ij.2 then f (shift r ij.1 h.1) (shift c ij.2 h.2) else ⊤

/-- Image `n` of the labels as a 0/1 picture. -/
def roadImg (T : ST.Idx → BitVec 32) (n : Fin 16) : Fin 1024 → Fin 1024 → EReal := fun r c => road (T (ix3 n r c))

/-- The 5 × 5 dilation and erosion of `road` at a pixel. -/
def dil (T : ST.Idx → BitVec 32) (n : Fin 16) (r c : Fin 1024) : EReal := dilOf (roadImg T n) r c
def ero (T : ST.Idx → BitVec 32) (n : Fin 16) (r c : Fin 1024) : EReal := eroOf (roadImg T n) r c

/-- The boundary weight at a pixel. -/
def weight (T : ST.Idx → BitVec 32) (n : Fin 16) (r c : Fin 1024) : EReal :=
  one32 + (dil T n r c - ero T n r c) * one32

/-- The weight map as an array. -/
def weightArr (T : ST.Idx → BitVec 32) : ST.Idx → EReal := fun j => weight T (j 0) (j 1) (j 2)

/-! ## The per-pixel cross-entropy -/

/-- The label clipped to {0, 1} (signed). -/
def clip01 (t : BitVec 32) : BitVec 32 := IntOp.minsi 1#32 (IntOp.maxsi 0#32 t)

/-- The logit of the clipped label. -/
def pick (x0 x1 : EReal) (t : BitVec 32) : EReal := if clip01 t = 0#32 then x0 else x1

/-- `log (exp (x₀ − M) + exp (x₁ − M))` with `M = max x₀ x₁`. -/
def logS (x0 x1 : EReal) : EReal := Ideal.log (Ideal.exp (x0 - max x0 x1) + Ideal.exp (x1 - max x0 x1))

/-- The cross-entropy as `(M + log S) − x_t`; zero at the ignored label 255. -/
def ceK (x0 x1 : EReal) (t : BitVec 32) : EReal :=
  if t ≠ 255#32 then (max x0 x1 + logS x0 x1) - pick x0 x1 t else 0

/-- The cross-entropy as `−((x_t − M) − log S)`; zero at the ignored label 255. -/
def ceR (x0 x1 : EReal) (t : BitVec 32) : EReal :=
  if t ≠ 255#32 then -((pick x0 x1 t - max x0 x1) - logS x0 x1) else 0

/-- 1 at a valid label, 0 at the ignored one. -/
def validf (t : BitVec 32) : EReal := if t ≠ 255#32 then 1 else 0

/-! ## Tiles of 256 rows -/

/-- Row `r` of tile `h`. -/
def row (h : Fin 4) (r : Fin 256) : Fin 1024 := ⟨256 * h.val + r.val, by omega⟩

/-- One tile's sum of weighted cross-entropies, against any weight array `W`. -/
def pnum (X : SX.Idx → EReal) (T : ST.Idx → BitVec 32) (W : ST.Idx → EReal) (n : Fin 16) (h : Fin 4) : EReal :=
  ∑ r : Fin 256, ∑ c : Fin 1024,
    ceK (X (ix4 n 0 (row h r) c)) (X (ix4 n 1 (row h r) c)) (T (ix3 n (row h r) c)) * W (ix3 n (row h r) c)

/-- One tile's count of valid pixels. -/
def pden (T : ST.Idx → BitVec 32) (n : Fin 16) (h : Fin 4) : EReal :=
  ∑ r : Fin 256, ∑ c : Fin 1024, validf (T (ix3 n (row h r) c))

/-- The tiles' partial results as arrays: every entry of a tile's 8 × 128 block holds the tile's sum. -/
def numArr (X : SX.Idx → EReal) (T : ST.Idx → BitVec 32) (W : ST.Idx → EReal) : SP.Idx → EReal :=
  fun j => pnum X T W (j 0) (j 1)
def denArr (T : ST.Idx → BitVec 32) : SP.Idx → EReal := fun j => pden T (j 0) (j 1)

/-! ## The loss -/

/-- The loss from a numerator, a count and the numerator of the no-valid-pixel branch. -/
def loss (num den alt : EReal) : EReal :=
  Scalar.select (Ideal.cmp .ogt den 0) (Ideal.div num (max den one32)) (Ideal.div alt cPix)

/-- Summed tile by tile. -/
def numK (X : SX.Idx → EReal) (T : ST.Idx → BitVec 32) : EReal := ∑ n : Fin 16, ∑ h : Fin 4, pnum X T (weightArr T) n h
def denK (T : ST.Idx → BitVec 32) : EReal := ∑ n : Fin 16, ∑ h : Fin 4, pden T n h
def LK (X : SX.Idx → EReal) (T : ST.Idx → BitVec 32) : EReal := loss (numK X T) (denK T) (numK X T)

/-- The weighted cross-entropy at a pixel, in the second spelling. -/
def wce (X : SX.Idx → EReal) (T : ST.Idx → BitVec 32) (j : ST.Idx) : EReal :=
  ceR (X (ix4 (j 0) 0 (j 1) (j 2))) (X (ix4 (j 0) 1 (j 1) (j 2))) (T j) * weight T (j 0) (j 1) (j 2)

/-- Summed over all pixels at once. -/
def LR (X : SX.Idx → EReal) (T : ST.Idx → BitVec 32) : EReal :=
  loss (∑ j : ST.Idx, wce X T j * validf (T j)) (∑ j : ST.Idx, validf (T j)) (∑ j : ST.Idx, wce X T j)

end Cert.Spec

end
-- ==== Proof.Window.lean ====
/-
  A separable 5-tap maximum (minimum) filter along rows then columns, each axis padded by two positions holding
  a value `s` below (above) every pixel, computes the 5 × 5 dilation (erosion): the window's centre is always inside
  the image, so a padded position never decides the extremum.
-/
import proofs.«408372_j81527069213368_1_alg».proof.Proof.Spec

noncomputable section

namespace Cert.Window

open Idealize.ShloMosaic Cert.Spec

/-- An axis of 1024 padded by two positions on each side holding `s`, read at padded position `k`. -/
def padAt (s : EReal) (g : Fin 1024 → EReal) (k : ℕ) : EReal :=
  if h : 2 ≤ k ∧ k < 1026 then g ⟨k - 2, by omega⟩ else s

/-- Five consecutive positions from `k`, maximised / minimised left to right. -/
def max5 (g : ℕ → EReal) (k : ℕ) : EReal := max (max (max (max (g k) (g (k + 1))) (g (k + 2))) (g (k + 3))) (g (k + 4))
def min5 (g : ℕ → EReal) (k : ℕ) : EReal := min (min (min (min (g k) (g (k + 1))) (g (k + 2))) (g (k + 3))) (g (k + 4))

/-- The five positions of `max5 g k` are `k + i` for `i : Fin 5`: it lies below `b` exactly when all five do. -/
theorem max5_le_iff (g : ℕ → EReal) (k : ℕ) (b : EReal) :
    max5 g k ≤ b ↔ ∀ i : Fin 5, g (k + i.val) ≤ b := by
  unfold max5
  simp only [max_le_iff]
  constructor
  · rintro ⟨⟨⟨⟨h0, h1⟩, h2⟩, h3⟩, h4⟩ i
    fin_cases i
    · exact h0
    · exact h1
    · exact h2
    · exact h3
    · exact h4
  · intro h
    exact ⟨⟨⟨⟨h 0, h 1⟩, h 2⟩, h 3⟩, h 4⟩

/-- Dually, `min5 g k` lies above `b` exactly when all five positions do. -/
theorem le_min5_iff (g : ℕ → EReal) (k : ℕ) (b : EReal) :
    b ≤ min5 g k ↔ ∀ i : Fin 5, b ≤ g (k + i.val) := by
  unfold min5
  simp only [le_min_iff]
  constructor
  · rintro ⟨⟨⟨⟨h0, h1⟩, h2⟩, h3⟩, h4⟩ i
    fin_cases i
    · exact h0
    · exact h1
    · exact h2
    · exact h3
    · exact h4
  · intro h
    exact ⟨⟨⟨⟨h 0, h 1⟩, h 2⟩, h 3⟩, h 4⟩

/-- At an offset that stays on the axis the padded axis reads the shifted coordinate. -/
theorem padAt_of_inAxis (s : EReal) (g : Fin 1024 → EReal) (c : Fin 1024) (j : Fin 5) (h : inAxis c j) :
    padAt s g (c.val + j.val) = g (shift c j h) := by
  have h' : 2 ≤ c.val + j.val ∧ c.val + j.val < 1026 := h
  unfold padAt
  rw [dif_pos h']
  rfl

/-- At an offset that leaves the axis the padded axis reads the pad. -/
theorem padAt_of_not_inAxis (s : EReal) (g : Fin 1024 → EReal) (c : Fin 1024) (j : Fin 5) (h : ¬ inAxis c j) :
    padAt s g (c.val + j.val) = s := by
  have h' : ¬ (2 ≤ c.val + j.val ∧ c.val + j.val < 1026) := h
  unfold padAt
  rw [dif_neg h']

/-- The centre offset always stays on the axis, and names the coordinate itself. -/
theorem inAxis_two (c : Fin 1024) : inAxis c 2 := by
  have hc := c.isLt
  show 2 ≤ c.val + 2 ∧ c.val + 2 < 1026
  omega

theorem shift_two (c : Fin 1024) : shift c 2 (inAxis_two c) = c := by
  apply Fin.ext
  show c.val + 2 - 2 = c.val
  omega

/-- One axis, pad below every value: the 5-tap maximum lies below `b` exactly when every in-axis tap does.
    A tap off the axis reads the pad, which lies below the centre tap. -/
theorem max5_padAt_le_iff (s : EReal) (g : Fin 1024 → EReal) (hs : ∀ x, s ≤ g x) (c : Fin 1024) (b : EReal) :
    max5 (padAt s g) c.val ≤ b ↔ ∀ (j : Fin 5) (h : inAxis c j), g (shift c j h) ≤ b := by
  rw [max5_le_iff]
  constructor
  · intro H j hj
    rw [← padAt_of_inAxis s g c j hj]
    exact H j
  · intro H j
    by_cases hj : inAxis c j
    · rw [padAt_of_inAxis s g c j hj]
      exact H j hj
    · rw [padAt_of_not_inAxis s g c j hj]
      have hc := H 2 (inAxis_two c)
      rw [shift_two] at hc
      exact (hs c).trans hc

/-- One axis, pad above every value: the 5-tap minimum lies above `b` exactly when every in-axis tap does. -/
theorem le_min5_padAt_iff (s : EReal) (g : Fin 1024 → EReal) (hs : ∀ x, g x ≤ s) (c : Fin 1024) (b : EReal) :
    b ≤ min5 (padAt s g) c.val ↔ ∀ (j : Fin 5) (h : inAxis c j), b ≤ g (shift c j h) := by
  rw [le_min5_iff]
  constructor
  · intro H j hj
    rw [← padAt_of_inAxis s g c j hj]
    exact H j
  · intro H j
    by_cases hj : inAxis c j
    · rw [padAt_of_inAxis s g c j hj]
      exact H j hj
    · rw [padAt_of_not_inAxis s g c j hj]
      have hc := H 2 (inAxis_two c)
      rw [shift_two] at hc
      exact hc.trans (hs c)

/-- The centre tap bounds the 5-tap maximum from below and the 5-tap minimum from above. -/
theorem le_max5_padAt (s : EReal) (g : Fin 1024 → EReal) (c : Fin 1024) : g c ≤ max5 (padAt s g) c.val := by
  have h := (max5_le_iff (padAt s g) c.val _).1 le_rfl 2
  rw [padAt_of_inAxis s g c 2 (inAxis_two c), shift_two] at h
  exact h

theorem min5_padAt_le (s : EReal) (g : Fin 1024 → EReal) (c : Fin 1024) : min5 (padAt s g) c.val ≤ g c := by
  have h := (le_min5_iff (padAt s g) c.val _).1 le_rfl 2
  rw [padAt_of_inAxis s g c 2 (inAxis_two c), shift_two] at h
  exact h

/-- Rows first, then columns, with a pad below every pixel: the dilation. -/
theorem sepMax_eq_dilOf (s : EReal) (f : Fin 1024 → Fin 1024 → EReal) (hs : ∀ r c, s ≤ f r c) (r c : Fin 1024) :
    max5 (padAt s fun r' => max5 (padAt s fun c' => f r' c') c.val) r.val = dilOf f r c := by
  -- both sides are least upper bounds of the in-image window values: compare their upper bounds
  refine eq_of_forall_ge_iff fun b => ?_
  have hrow : ∀ r', s ≤ max5 (padAt s fun c' => f r' c') c.val :=
    fun r' => (hs r' c).trans (le_max5_padAt s (fun c' => f r' c') c)
  rw [max5_padAt_le_iff s (fun r' => max5 (padAt s fun c' => f r' c') c.val) hrow r b]
  unfold dilOf
  rw [Finset.sup_le_iff]
  constructor
  · intro H ij _
    by_cases h : inAxis r ij.1 ∧ inAxis c ij.2
    · rw [dif_pos h]
      exact (max5_padAt_le_iff s (fun c' => f (shift r ij.1 h.1) c') (hs _) c b).1 (H ij.1 h.1) ij.2 h.2
    · rw [dif_neg h]
      exact bot_le
  · intro H i hi
    rw [max5_padAt_le_iff s (fun c' => f (shift r i hi) c') (hs _) c b]
    intro j hj
    have h := H (i, j) (Finset.mem_univ _)
    rw [dif_pos (⟨hi, hj⟩ : inAxis r (i, j).1 ∧ inAxis c (i, j).2)] at h
    exact h

/-- Rows first, then columns, with a pad above every pixel: the erosion. -/
theorem sepMin_eq_eroOf (s : EReal) (f : Fin 1024 → Fin 1024 → EReal) (hs : ∀ r c, f r c ≤ s) (r c : Fin 1024) :
    min5 (padAt s fun r' => min5 (padAt s fun c' => f r' c') c.val) r.val = eroOf f r c := by
  -- both sides are greatest lower bounds of the in-image window values: compare their lower bounds
  refine eq_of_forall_le_iff fun b => ?_
  have hrow : ∀ r', min5 (padAt s fun c' => f r' c') c.val ≤ s :=
    fun r' => (min5_padAt_le s (fun c' => f r' c') c).trans (hs r' c)
  rw [le_min5_padAt_iff s (fun r' => min5 (padAt s fun c' => f r' c') c.val) hrow r b]
  unfold eroOf
  rw [Finset.le_inf_iff]
  constructor
  · intro H ij _
    by_cases h : inAxis r ij.1 ∧ inAxis c ij.2
    · rw [dif_pos h]
      exact (le_min5_padAt_iff s (fun c' => f (shift r ij.1 h.1) c') (hs _) c b).1 (H ij.1 h.1) ij.2 h.2
    · rw [dif_neg h]
      exact le_top
  · intro H i hi
    rw [le_min5_padAt_iff s (fun c' => f (shift r i hi) c') (hs _) c b]
    intro j hj
    have h := H (i, j) (Finset.mem_univ _)
    rw [dif_pos (⟨hi, hj⟩ : inAxis r (i, j).1 ∧ inAxis c (i, j).2)] at h
    exact h

/-- The two pad values sit below 0 and above 1. -/
theorem negBig_le : Ideal.ofBits .f32 0xFF61B1E6#32 ≤ 0 := by
  simp [Ideal.ofBits, Ideal.ieee]
  exact_mod_cast (by positivity : (0:ℝ) ≤ 14791142 * 2 ^ 104)

theorem one_le_posBig : (1 : EReal) ≤ Ideal.ofBits .f32 0x7F61B1E6#32 := by
  simp [Ideal.ofBits, Ideal.ieee]
  exact_mod_cast (by norm_num : (1:ℝ) ≤ 14791142 * 2 ^ 104)

/-- `road` takes the values 0 and 1. -/
theorem road_nonneg (t : BitVec 32) : 0 ≤ road t := by unfold road; split_ifs <;> simp
theorem road_le_one (t : BitVec 32) : road t ≤ 1 := by unfold road; split_ifs <;> simp

end Cert.Window

end
-- ==== Proof.Mask.lean ====
/-
  The first kernel's result array: the boundary weight map of the labels it is entered with.

  The kernel turns its block of labels into the 0/1 picture of the label 1, pads the picture by two columns on each
  side with a value below (above) every pixel and takes the maximum (minimum) of five column-shifted slices, then
  does the same along the rows, and stores one plus the difference times one. Read at a pixel, a padded image is the
  pixel inside and the pad outside, and a shifted slice is the padded image at the shifted position; so the two
  passes are the separable five-tap filters, which are the 5 × 5 dilation and erosion. Grid point `t` reads image
  `t` of the labels and writes image `t` of the result, and the sixteen images make up the array.
-/
import proofs.«408372_j81527069213368_1_alg».proof.Proof.Gen.KernelIdeal.Frame
import proofs.«408372_j81527069213368_1_alg».proof.Proof.Spec
import proofs.«408372_j81527069213368_1_alg».proof.Proof.Window
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Mask

open Idealize.ShloMosaic Idealize.ShloMosaic.TcCoe Idealize.SL.Sem Idealize.ShloMosaic.ValueIdx
open Idealize.ShloMosaic.Pipeline (Dat)
open Cert.KernelIdeal Cert.KernelIdeal.Gen

/-! ## The padded images read at a position -/

/-- An image with two columns holding `s` put on each side. -/
def padCols (s : EReal) (v : FVec Ideal S1024x1024 .f32) : FVec Ideal S1024x1028 .f32 :=
  concatenate S1024x1028 1 [⟨S1024x2, broadcast S1024x2 s⟩, ⟨S1024x1024, v⟩, ⟨S1024x2, broadcast S1024x2 s⟩] concatenates_S1024x2_S1024x1024_S1024x2_S1024x1028_d1

/-- An image with two rows holding `s` put above and below. -/
def padRows (s : EReal) (v : FVec Ideal S1024x1024 .f32) : FVec Ideal S1028x1024 .f32 :=
  concatenate S1028x1024 0 [⟨S2x1024, broadcast S2x1024 s⟩, ⟨S1024x1024, v⟩, ⟨S2x1024, broadcast S2x1024 s⟩] concatenates_S2x1024_S1024x1024_S2x1024_S1028x1024_d0

/-- Row `r` of the column-padded image at padded column `k`: the row's pixel `k - 2` inside the image, the pad outside. -/
theorem padCols_apply (s : EReal) (v : FVec Ideal S1024x1024 .f32) (r : Fin 1024) (k : Fin 1028) :
    padCols s v (ix2 r k) = Window.padAt s (fun c' => v (ix2 r c')) k.val := by
  unfold padCols Window.padAt
  split
  · rename_i h
    refine concatenate_apply_piece (t := S1024x1028) (1 : Fin 2) [⟨S1024x2, broadcast S1024x2 s⟩, ⟨S1024x1024, v⟩, ⟨S1024x2, broadcast S1024x2 s⟩] concatenates_S1024x2_S1024x1024_S1024x2_S1024x1028_d1 (ix2 r k) 1 (show 1 < 3 by omega) S1024x1024 v rfl rfl 2 (by rfl) (ix2 r ⟨k.val - 2, by omega⟩) ?_ ?_
    · intro b hb
      match b with
      | ⟨0, _⟩ => rfl
      | ⟨1, _⟩ => exact absurd rfl hb
    · show 2 + (k.val - 2) = k.val
      omega
  · rename_i h
    by_cases hk : k.val < 2
    · refine (concatenate_apply_piece (t := S1024x1028) (1 : Fin 2) [⟨S1024x2, broadcast S1024x2 s⟩, ⟨S1024x1024, v⟩, ⟨S1024x2, broadcast S1024x2 s⟩] concatenates_S1024x2_S1024x1024_S1024x2_S1024x1028_d1 (ix2 r k) 0 (show 0 < 3 by omega) S1024x2 (broadcast S1024x2 s) rfl rfl 0 (by rfl) (ix2 r ⟨k.val, hk⟩) ?_ ?_).trans rfl
      · intro b hb
        match b with
        | ⟨0, _⟩ => rfl
        | ⟨1, _⟩ => exact absurd rfl hb
      · show 0 + k.val = k.val
        omega
    · have hk' : k.val < 1028 := k.isLt
      refine (concatenate_apply_piece (t := S1024x1028) (1 : Fin 2) [⟨S1024x2, broadcast S1024x2 s⟩, ⟨S1024x1024, v⟩, ⟨S1024x2, broadcast S1024x2 s⟩] concatenates_S1024x2_S1024x1024_S1024x2_S1024x1028_d1 (ix2 r k) 2 (show 2 < 3 by omega) S1024x2 (broadcast S1024x2 s) rfl rfl 1026 (by rfl) (ix2 r ⟨k.val - 1026, by omega⟩) ?_ ?_).trans rfl
      · intro b hb
        match b with
        | ⟨0, _⟩ => rfl
        | ⟨1, _⟩ => exact absurd rfl hb
      · show 1026 + (k.val - 1026) = k.val
        omega

/-- Column `c` of the row-padded image at padded row `k`: the column's pixel `k - 2` inside the image, the pad outside. -/
theorem padRows_apply (s : EReal) (v : FVec Ideal S1024x1024 .f32) (k : Fin 1028) (c : Fin 1024) :
    padRows s v (ix2 k c) = Window.padAt s (fun r' => v (ix2 r' c)) k.val := by
  unfold padRows Window.padAt
  split
  · rename_i h
    refine concatenate_apply_piece (t := S1028x1024) (0 : Fin 2) [⟨S2x1024, broadcast S2x1024 s⟩, ⟨S1024x1024, v⟩, ⟨S2x1024, broadcast S2x1024 s⟩] concatenates_S2x1024_S1024x1024_S2x1024_S1028x1024_d0 (ix2 k c) 1 (show 1 < 3 by omega) S1024x1024 v rfl rfl 2 (by rfl) (ix2 ⟨k.val - 2, by omega⟩ c) ?_ ?_
    · intro b hb
      match b with
      | ⟨0, _⟩ => exact absurd rfl hb
      | ⟨1, _⟩ => rfl
    · show 2 + (k.val - 2) = k.val
      omega
  · rename_i h
    by_cases hk : k.val < 2
    · refine (concatenate_apply_piece (t := S1028x1024) (0 : Fin 2) [⟨S2x1024, broadcast S2x1024 s⟩, ⟨S1024x1024, v⟩, ⟨S2x1024, broadcast S2x1024 s⟩] concatenates_S2x1024_S1024x1024_S2x1024_S1028x1024_d0 (ix2 k c) 0 (show 0 < 3 by omega) S2x1024 (broadcast S2x1024 s) rfl rfl 0 (by rfl) (ix2 ⟨k.val, hk⟩ c) ?_ ?_).trans rfl
      · intro b hb
        match b with
        | ⟨0, _⟩ => exact absurd rfl hb
        | ⟨1, _⟩ => rfl
      · show 0 + k.val = k.val
        omega
    · have hk' : k.val < 1028 := k.isLt
      refine (concatenate_apply_piece (t := S1028x1024) (0 : Fin 2) [⟨S2x1024, broadcast S2x1024 s⟩, ⟨S1024x1024, v⟩, ⟨S2x1024, broadcast S2x1024 s⟩] concatenates_S2x1024_S1024x1024_S2x1024_S1028x1024_d0 (ix2 k c) 2 (show 2 < 3 by omega) S2x1024 (broadcast S2x1024 s) rfl rfl 1026 (by rfl) (ix2 ⟨k.val - 1026, by omega⟩ c) ?_ ?_).trans rfl
      · intro b hb
        match b with
        | ⟨0, _⟩ => exact absurd rfl hb
        | ⟨1, _⟩ => rfl
      · show 1026 + (k.val - 1026) = k.val
        omega

/-! ## Five shifted slices, maximised / minimised left to right -/

/-- The five column slices of a column-padded image, maximised / minimised left to right. -/
def colMax (p : FVec Ideal S1024x1028 .f32) : FVec Ideal S1024x1024 .f32 :=
  maximumf (maximumf (maximumf (maximumf
    (extractStridedSlice S1024x1024 ![0, 0] p slices_S1024x1028_o0_0_S1024x1024)
    (extractStridedSlice S1024x1024 ![0, 1] p slices_S1024x1028_o0_1_S1024x1024))
    (extractStridedSlice S1024x1024 ![0, 2] p slices_S1024x1028_o0_2_S1024x1024))
    (extractStridedSlice S1024x1024 ![0, 3] p slices_S1024x1028_o0_3_S1024x1024))
    (extractStridedSlice S1024x1024 ![0, 4] p slices_S1024x1028_o0_4_S1024x1024)
def colMin (p : FVec Ideal S1024x1028 .f32) : FVec Ideal S1024x1024 .f32 :=
  minimumf (minimumf (minimumf (minimumf
    (extractStridedSlice S1024x1024 ![0, 0] p slices_S1024x1028_o0_0_S1024x1024)
    (extractStridedSlice S1024x1024 ![0, 1] p slices_S1024x1028_o0_1_S1024x1024))
    (extractStridedSlice S1024x1024 ![0, 2] p slices_S1024x1028_o0_2_S1024x1024))
    (extractStridedSlice S1024x1024 ![0, 3] p slices_S1024x1028_o0_3_S1024x1024))
    (extractStridedSlice S1024x1024 ![0, 4] p slices_S1024x1028_o0_4_S1024x1024)

/-- The five row slices of a row-padded image, maximised / minimised top to bottom. -/
def rowMax (p : FVec Ideal S1028x1024 .f32) : FVec Ideal S1024x1024 .f32 :=
  maximumf (maximumf (maximumf (maximumf
    (extractStridedSlice S1024x1024 ![0, 0] p slices_S1028x1024_o0_0_S1024x1024)
    (extractStridedSlice S1024x1024 ![1, 0] p slices_S1028x1024_o1_0_S1024x1024))
    (extractStridedSlice S1024x1024 ![2, 0] p slices_S1028x1024_o2_0_S1024x1024))
    (extractStridedSlice S1024x1024 ![3, 0] p slices_S1028x1024_o3_0_S1024x1024))
    (extractStridedSlice S1024x1024 ![4, 0] p slices_S1028x1024_o4_0_S1024x1024)
def rowMin (p : FVec Ideal S1028x1024 .f32) : FVec Ideal S1024x1024 .f32 :=
  minimumf (minimumf (minimumf (minimumf
    (extractStridedSlice S1024x1024 ![0, 0] p slices_S1028x1024_o0_0_S1024x1024)
    (extractStridedSlice S1024x1024 ![1, 0] p slices_S1028x1024_o1_0_S1024x1024))
    (extractStridedSlice S1024x1024 ![2, 0] p slices_S1028x1024_o2_0_S1024x1024))
    (extractStridedSlice S1024x1024 ![3, 0] p slices_S1028x1024_o3_0_S1024x1024))
    (extractStridedSlice S1024x1024 ![4, 0] p slices_S1028x1024_o4_0_S1024x1024)

/-- The column slice at offset `d` read at `(r, c)` is the padded image at `(r, c + d)`. -/
theorem colSlice_apply (d : Nat) (hd : d < 5) (p : FVec Ideal S1024x1028 .f32) (h : S1024x1028.Slices ![0, d] S1024x1024) (r c : Fin 1024) :
    extractStridedSlice S1024x1024 ![0, d] p h (ix2 r c) = p (ix2 r ⟨c.val + d, by omega⟩) := by
  refine extractStridedSlice_apply _ p h (ix2 r c) (ix2 r ⟨c.val + d, by omega⟩) fun a => ?_
  match a with
  | ⟨0, _⟩ => show r.val = 0 + r.val; omega
  | ⟨1, _⟩ => show c.val + d = d + c.val; omega

/-- The row slice at offset `d` read at `(r, c)` is the padded image at `(r + d, c)`. -/
theorem rowSlice_apply (d : Nat) (hd : d < 5) (p : FVec Ideal S1028x1024 .f32) (h : S1028x1024.Slices ![d, 0] S1024x1024) (r c : Fin 1024) :
    extractStridedSlice S1024x1024 ![d, 0] p h (ix2 r c) = p (ix2 ⟨r.val + d, by omega⟩ c) := by
  refine extractStridedSlice_apply _ p h (ix2 r c) (ix2 ⟨r.val + d, by omega⟩ c) fun a => ?_
  match a with
  | ⟨0, _⟩ => show r.val + d = d + r.val; omega
  | ⟨1, _⟩ => show c.val = 0 + c.val; omega

/-- The row pass of the dilation at a pixel: the maximum of the padded row over the five positions from the pixel's column. -/
theorem colMax_padCols_apply (s : EReal) (v : FVec Ideal S1024x1024 .f32) (r c : Fin 1024) :
    colMax (padCols s v) (ix2 r c) = Window.max5 (Window.padAt s fun c' => v (ix2 r c')) c.val := by
  unfold colMax Window.max5
  simp only [maximumf_apply]
  rw [colSlice_apply 0 (by omega), colSlice_apply 1 (by omega), colSlice_apply 2 (by omega), colSlice_apply 3 (by omega), colSlice_apply 4 (by omega)]
  simp only [padCols_apply]
  rfl

/-- The row pass of the erosion at a pixel: the minimum of the padded row over the five positions from the pixel's column. -/
theorem colMin_padCols_apply (s : EReal) (v : FVec Ideal S1024x1024 .f32) (r c : Fin 1024) :
    colMin (padCols s v) (ix2 r c) = Window.min5 (Window.padAt s fun c' => v (ix2 r c')) c.val := by
  unfold colMin Window.min5
  simp only [minimumf_apply]
  rw [colSlice_apply 0 (by omega), colSlice_apply 1 (by omega), colSlice_apply 2 (by omega), colSlice_apply 3 (by omega), colSlice_apply 4 (by omega)]
  simp only [padCols_apply]
  rfl

/-- The column pass at a pixel: the maximum of the padded column over the five positions from the pixel's row. -/
theorem rowMax_padRows_apply (s : EReal) (v : FVec Ideal S1024x1024 .f32) (r c : Fin 1024) :
    rowMax (padRows s v) (ix2 r c) = Window.max5 (Window.padAt s fun r' => v (ix2 r' c)) r.val := by
  unfold rowMax Window.max5
  simp only [maximumf_apply]
  rw [rowSlice_apply 0 (by omega), rowSlice_apply 1 (by omega), rowSlice_apply 2 (by omega), rowSlice_apply 3 (by omega), rowSlice_apply 4 (by omega)]
  simp only [padRows_apply]
  rfl

/-- The column pass at a pixel: the minimum of the padded column over the five positions from the pixel's row. -/
theorem rowMin_padRows_apply (s : EReal) (v : FVec Ideal S1024x1024 .f32) (r c : Fin 1024) :
    rowMin (padRows s v) (ix2 r c) = Window.min5 (Window.padAt s fun r' => v (ix2 r' c)) r.val := by
  unfold rowMin Window.min5
  simp only [minimumf_apply]
  rw [rowSlice_apply 0 (by omega), rowSlice_apply 1 (by omega), rowSlice_apply 2 (by omega), rowSlice_apply 3 (by omega), rowSlice_apply 4 (by omega)]
  simp only [padRows_apply]
  rfl

/-! ## The 0/1 picture of the label 1 -/

/-- The label block compared with 1, widened and converted: the 0/1 picture the kernel filters. -/
def roadV (x0 : Vec Ideal S1x1024x1024 .i32) : FVec Ideal S1024x1024 .f32 :=
  sitofp .f32 (extui 32 (cmpi .eq (shapeCast S1024x1024 x0 shapeCasts_S1x1024x1024_S1024x1024) (broadcast S1024x1024 1#32)) natLt_1_32)

/-- The comparison bit widened to 32 bits and read as a signed integer is 1 at the label 1 and 0 elsewhere. -/
theorem sitofp_cmpi_eq_one (t : BitVec 32) :
    FloatOps.sitofp (F := Ideal) .f32 ((IntOp.cmpi .eq t 1#32).setWidth 32) = Spec.road t := by
  unfold Spec.road IntOp.cmpi
  by_cases h : t = 1#32
  · subst h
    rw [if_pos rfl]
    show (((((BitVec.ofBool (1#32 == 1#32)).setWidth 32).toInt : ℝ)) : EReal) = 1
    have e : ((BitVec.ofBool (1#32 == 1#32)).setWidth 32).toInt = 1 := by decide
    rw [e]; norm_num
  · rw [if_neg h]
    have hb : (t == 1#32) = false := by simpa using h
    show (((((BitVec.ofBool (t == 1#32)).setWidth 32).toInt : ℝ)) : EReal) = 0
    rw [hb]
    have e : ((BitVec.ofBool false).setWidth 32).toInt = 0 := by decide
    rw [e]; norm_num

/-- The picture at a pixel is `road` of the block's label there. -/
theorem roadV_apply (x0 : Vec Ideal S1x1024x1024 .i32) (r c : Fin 1024) :
    roadV x0 (ix2 r c) = Spec.road (x0 (ix3 0 r c)) := by
  unfold roadV
  rw [sitofp_apply, extui_apply]
  show FloatOps.sitofp (F := Ideal) .f32 ((IntOp.cmpi .eq (shapeCast S1024x1024 x0 shapeCasts_S1x1024x1024_S1024x1024 (ix2 r c)) 1#32).setWidth 32) = _
  rw [shapeCast_apply x0 shapeCasts_S1x1024x1024_S1024x1024 (ix2 r c) (ix3 0 r c)
    (by rw [Shape.rowMajor_val_three, Shape.rowMajor_val_two]; show ((0 : Fin 1).val * 1024 + r.val) * 1024 + c.val = r.val * 1024 + c.val; simp)]
  exact sitofp_cmpi_eq_one _

/-! ## The kernel's value at a pixel -/

/-- The two pad values. -/
abbrev sNeg : EReal := Ideal.ofBits .f32 0xFF61B1E6#32
abbrev sPos : EReal := Ideal.ofBits .f32 0x7F61B1E6#32

/-- The kernel's filter stage is the separable maximum less the separable minimum of the padded 0/1 picture. -/
theorem filter_eq (x0 : Vec Ideal S1x1024x1024 .i32) :
    k0_pay2 (F := Ideal) x0
      = subf (rowMax (padRows sNeg (colMax (padCols sNeg (roadV x0))))) (rowMin (padRows sPos (colMin (padCols sPos (roadV x0))))) := rfl

/-- The stored block at pixel `(r, c)`: one plus the separable maximum less the separable minimum, times one. -/
theorem stored_apply (x0 : Vec Ideal S1x1024x1024 .i32) (r c : Fin 1024) :
    k0_pay1 (F := Ideal) (k0_pay2 x0) (ix3 0 r c)
      = Spec.one32 + (Window.max5 (Window.padAt sNeg fun r' => Window.max5 (Window.padAt sNeg fun c' => Spec.road (x0 (ix3 0 r' c'))) c.val) r.val
          - Window.min5 (Window.padAt sPos fun r' => Window.min5 (Window.padAt sPos fun c' => Spec.road (x0 (ix3 0 r' c'))) c.val) r.val) * Spec.one32 := by
  unfold k0_pay1
  refine (shapeCast_apply _ shapeCasts_S1024x1024_S1x1024x1024 (ix3 0 r c) (ix2 r c)
    (by rw [Shape.rowMajor_val_three, Shape.rowMajor_val_two]; show r.val * 1024 + c.val = ((0 : Fin 1).val * 1024 + r.val) * 1024 + c.val; simp)).trans ?_
  rw [addf_apply, mulf_apply, broadcast_apply, filter_eq, subf_apply, rowMax_padRows_apply, rowMin_padRows_apply]
  simp only [colMax_padCols_apply, colMin_padCols_apply, roadV_apply]
  rfl

/-! ## The stored block as the weight map -/

/-- A label block that is image `n` of the labels array makes the stored block the weight map's image `n`. -/
theorem stored_eq_weight (x0 : Vec Ideal S1x1024x1024 .i32) (T : S16x1024x1024.Idx → BitVec 32) (n : Fin 16)
    (hx : ∀ r' c' : Fin 1024, x0 (ix3 0 r' c') = T (ix3 n r' c')) (r c : Fin 1024) :
    k0_pay1 (F := Ideal) (k0_pay2 x0) (ix3 0 r c) = Spec.weight T n r c := by
  rw [stored_apply]
  simp only [hx]
  have hmax := Window.sepMax_eq_dilOf sNeg (fun r c => Spec.road (T (ix3 n r c)))
    (fun r c => le_trans Window.negBig_le (Window.road_nonneg _)) r c
  have hmin := Window.sepMin_eq_eroOf sPos (fun r c => Spec.road (T (ix3 n r c)))
    (fun r c => le_trans (Window.road_le_one _) Window.one_le_posBig) r c
  exact congrArg₂ (fun a b => Spec.one32 + (a - b) * Spec.one32) hmax hmin

/-- The same at any index of the block against any index of the array with the matching coordinates. -/
theorem stored_eq_weightArr (x0 : Vec Ideal S1x1024x1024 .i32) (T : S16x1024x1024.Idx → BitVec 32) (n : Fin 16)
    (hx : ∀ r' c' : Fin 1024, x0 (ix3 0 r' c') = T (ix3 n r' c')) (j : S1x1024x1024.Idx) (i : S16x1024x1024.Idx)
    (h0 : (i 0).val = n.val) (h1 : (i 1).val = (j 1).val) (h2 : (i 2).val = (j 2).val) :
    k0_pay1 (F := Ideal) (k0_pay2 x0) j = Spec.weightArr T i := by
  obtain ⟨z, r, q, rfl⟩ : ∃ (z : Fin 1) (r q : Fin 1024), j = ix3 z r q := ⟨j 0, j 1, j 2, eq_ix3 j⟩
  obtain rfl : z = 0 := Subsingleton.elim _ _
  have e0 : i 0 = n := Fin.ext h0
  have e1 : i 1 = r := Fin.ext h1
  have e2 : i 2 = q := Fin.ext h2
  unfold Spec.weightArr
  rw [e0, e1, e2]
  exact stored_eq_weight x0 T n hx r q

/-! ## From the blocks to the array -/

-- the buffers' contents when a region is entered, at the extended reals
variable (V : (c : Dev nD) → (b : Ref sig .tc) → Buf (Elt Ideal) ((c : Thread nD τ).loc b))

/-- A block is stored at offset zero on every axis. -/
theorem zero_offsets : (![0, 0, 0] : Fin 3 → Nat) = fun _ => 0 := funext fun a => by fin_cases a <;> rfl

/-- Both windows' blocks at grid point `t` are image `t`, whole. -/
theorem block_is_image : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The grid has sixteen points. -/
theorem point_lt (t : Fin cfg0.N) : t.val < 16 := by have := t.isLt; have h : cfg0.N = 16 := N_0; omega

/-- The label block at grid point `t` is image `t` of the labels array. -/
theorem labelBlock_apply (c : Dev nD) (t : Fin cfg0.N) (r q : Fin 1024) :
    (iblk0 (F := Ideal) V c 0 t : Vec Ideal S1x1024x1024 .i32) (ix3 0 r q)
      = (V c main_arg1 : S16x1024x1024.Idx → BitVec 32) (ix3 ⟨t.val, point_lt t⟩ r q) := by
  obtain ⟨e0, e1, e2, -, -, -⟩ := block_is_image t
  unfold iblk0
  rw [View.read_apply]
  show V c main_arg1 _ = V c main_arg1 _
  congr 1
  funext a
  apply Fin.ext
  match a with
  | ⟨0, _⟩ => show win0_0.index t 0 * 1 + 1 * (0 : Fin 1).val = t.val; rw [e0]; simp
  | ⟨1, _⟩ => show win0_0.index t 1 * 1024 + 1 * r.val = r.val; rw [e1]; omega
  | ⟨2, _⟩ => show win0_0.index t 2 * 1024 + 1 * q.val = q.val; rw [e2]; omega

/-- What grid point `t` writes back is block `t` of the weight map of the labels array. -/
theorem written_block_eq (c : Dev nD) (t : Fin cfg0.N) :
    (dat0 (F := Ideal) V c).flushed 1 t
      = ((cfg0.win 1).blk t).view.read (Elt Ideal) (Spec.weightArr (V c main_arg1 : S16x1024x1024.Idx → BitVec 32)) := by
  show (cfg0.win 1).cut (grid0.coords t) ((dat0 (F := Ideal) V c).after 1 t) = _
  rw [after0_1]
  unfold out0_1
  rw [View.canon_unit_zero zero_offsets]
  simp only [View.ld_unit_zero (S := S1x1024x1024) zero_offsets]
  obtain ⟨-, -, -, e0, e1, e2⟩ := block_is_image t
  funext j
  show k0_pay1 (F := Ideal) (k0_pay2 (iblk0 (F := Ideal) V c 0 t)) j = Spec.weightArr (V c main_arg1 : S16x1024x1024.Idx → BitVec 32) (((cfg0.win 1).blk t).view.emb j)
  refine stored_eq_weightArr _ _ ⟨t.val, point_lt t⟩ (fun r' c' => labelBlock_apply V c t r' c') j _ ?_ ?_ ?_
  · show win0_1.index t 0 * 1 + 1 * (j 0).val = t.val
    have hj : (j 0).val < 1 := (j 0).isLt
    rw [e0]; omega
  · show win0_1.index t 1 * 1024 + 1 * (j 1).val = (j 1).val
    rw [e1]; omega
  · show win0_1.index t 2 * 1024 + 1 * (j 2).val = (j 2).val
    rw [e2]; omega

/-- After the first region, its output array holds the weight map of the labels array the region was entered with. -/
theorem weight_final (c : Dev nD) :
    ((dat0 (F := Ideal) V c).arrAt 1 cfg0.N : S16x1024x1024.Idx → EReal)
      = Cert.Spec.weightArr (V c main_arg1 : S16x1024x1024.Idx → BitVec 32) := by
  refine (dat0 (F := Ideal) V c).arrAt_eq_of_cover 1 (Spec.weightArr (V c main_arg1 : S16x1024x1024.Idx → BitVec 32)) (fun t _ => written_block_eq V c t) fun i => ?_
  have hi0 : (i 0).val < 16 := (i 0).isLt
  have hi1 : (i 1).val < 1024 := (i 1).isLt
  have hi2 : (i 2).val < 1024 := (i 2).isLt
  have hN : cfg0.N = 16 := N_0
  have ht : (i 0).val < cfg0.N := by omega
  refine ⟨⟨(i 0).val, ht⟩, flush0_1 _, ?_⟩
  obtain ⟨-, -, -, e0, e1, e2⟩ := block_is_image ⟨(i 0).val, ht⟩
  show i ∈ ((View.whole main_v0).slice (win0_1.rect ⟨(i 0).val, ht⟩)).set
  rw [View.set_slice_whole, Rect.mem_set_unit]
  intro a
  match a with
  | ⟨0, _⟩ =>
    show win0_1.index ⟨(i 0).val, ht⟩ 0 * 1 ≤ (i 0).val ∧ (i 0).val < win0_1.index ⟨(i 0).val, ht⟩ 0 * 1 + 1
    have e0' : win0_1.index ⟨(i 0).val, ht⟩ 0 = (i 0).val := e0
    rw [e0']; omega
  | ⟨1, _⟩ =>
    show win0_1.index ⟨(i 0).val, ht⟩ 1 * 1024 ≤ (i 1).val ∧ (i 1).val < win0_1.index ⟨(i 0).val, ht⟩ 1 * 1024 + 1024
    rw [e1]; omega
  | ⟨2, _⟩ =>
    show win0_1.index ⟨(i 0).val, ht⟩ 2 * 1024 ≤ (i 2).val ∧ (i 2).val < win0_1.index ⟨(i 0).val, ht⟩ 2 * 1024 + 1024
    rw [e2]; omega

end Cert.KernelIdeal.Mask

end
-- ==== Proof.Ce.lean ====
/-
  The second kernel's two result arrays: per tile of 256 rows, the sum of the weighted cross-entropies and the count
  of valid pixels, each spread over the tile's 8 × 128 block.

  The road: the per-pixel scalar the kernel computes is the specification's weighted cross-entropy (and its validity
  indicator); the layout operations and the two lane sums read at an index turn the stored values into double sums
  over the tile's 256 × 1024 pixels; each input block reads the argument arrays at (image, 256 · tile + row, column);
  every index of a result array lies in the block of the grid point of its image and tile.
-/
import proofs.«408372_j81527069213368_1_alg».proof.Proof.Gen.KernelIdeal.Frame
import proofs.«408372_j81527069213368_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Ce

open Idealize.ShloMosaic Idealize.ShloMosaic.TcCoe Idealize.SL.Sem Idealize.ShloMosaic.ValueIdx
open Idealize.ShloMosaic.Pipeline (Dat)
open Cert.KernelIdeal Cert.KernelIdeal.Gen

/-! ## Scalars -/

/-- An integer comparison's result bit, spelt as a decision. -/
theorem cmpi_ne_bit (x y : BitVec 32) : IntOp.cmpi .ne x y = if x ≠ y then 1#1 else 0#1 := by
  unfold IntOp.cmpi
  by_cases h : x = y
  · subst h; simp
  · have hb : (x != y) = true := bne_iff_ne.mpr h
    rw [if_pos h]
    show BitVec.ofBool (x != y) = 1#1
    rw [hb]; rfl

theorem cmpi_eq_bit (x y : BitVec 32) : IntOp.cmpi .eq x y = if x = y then 1#1 else 0#1 := by
  unfold IntOp.cmpi
  by_cases h : x = y
  · subst h; simp
  · have hb : (x == y) = false := beq_eq_false_iff_ne.mpr h
    rw [if_neg h]
    show BitVec.ofBool (x == y) = 0#1
    rw [hb]; rfl

/-- The kernel's per-pixel scalar is the weighted cross-entropy of the specification. -/
theorem pixel_eq (x0 x1 w : EReal) (t : BitVec 32) :
    Scalar.select (IntOp.cmpi .ne t 255#32)
      ((max x0 x1 + Ideal.log (Ideal.exp (x0 - max x0 x1) + Ideal.exp (x1 - max x0 x1)))
        - Scalar.select (IntOp.cmpi .eq (IntOp.minsi 1#32 (IntOp.maxsi 0#32 t)) 0#32) x0 x1)
      (Ideal.ofBits .f32 0x00000000#32) * w
    = Cert.Spec.ceK x0 x1 t * w := by
  unfold Cert.Spec.ceK Cert.Spec.logS Cert.Spec.pick Cert.Spec.clip01
  rw [cmpi_ne_bit, cmpi_eq_bit]
  congr 1
  by_cases h1 : t ≠ 255#32
  · rw [if_pos h1, if_pos h1, select_one]
    congr 1
    by_cases h2 : IntOp.minsi 1#32 (IntOp.maxsi 0#32 t) = 0#32
    · rw [if_pos h2, if_pos h2, select_one]
    · rw [if_neg h2, if_neg h2, select_zero]
  · rw [if_neg h1, if_neg h1, select_zero, Ideal.ofBits_zero_f32]

/-- The validity bit widened to a word and converted to a float is the validity indicator. -/
theorem valid_eq (t : BitVec 32) :
    FloatOps.sitofp (F := Ideal) .f32 ((IntOp.cmpi .ne t 255#32).setWidth 32) = Cert.Spec.validf t := by
  unfold Cert.Spec.validf
  rw [cmpi_ne_bit]
  by_cases h1 : t ≠ 255#32
  · rw [if_pos h1, if_pos h1]
    have e : (BitVec.setWidth 32 1#1).toInt = 1 := by decide
    show (((BitVec.setWidth 32 1#1).toInt : ℝ) : EReal) = 1
    rw [e]; simp
  · rw [if_neg h1, if_neg h1]
    have e : (BitVec.setWidth 32 0#1).toInt = 0 := by decide
    show (((BitVec.setWidth 32 0#1).toInt : ℝ) : EReal) = 0
    rw [e]; simp

/-! ## The layout operations at an index -/

section Layout
variable {α : Type}

/-- A `[1, 1, 256, 1024]` block viewed `[256, 1024]` reads `(r, c)` at `(0, 0, r, c)`. -/
theorem cast_plane (x : S1x1x256x1024.Idx → α) (h : S1x1x256x1024.ShapeCasts S256x1024) (r : Fin 256) (c : Fin 1024) :
    shapeCast S256x1024 x h (ix2 r c) = x (ix4 (0 : Fin 1) (0 : Fin 1) r c) :=
  shapeCast_apply x h _ _ (by
    rw [Shape.rowMajor_val_four, Shape.rowMajor_val_two]
    show ((0 * 1 + 0) * 256 + r.val) * 1024 + c.val = r.val * 1024 + c.val
    simp only [Nat.zero_mul, Nat.zero_add])

/-- A `[256]` vector viewed as a column `[256, 1]` reads `(r, 0)` at `r`. -/
theorem cast_column (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_two, Shape.rowMajor_val_one]
    show r.val = r.val * 1 + u.val
    omega)

/-- A one-entry vector viewed `[1, 1]`. -/
theorem cast_one (x : S1.Idx → α) (h : S1.ShapeCasts S1x1) (u u' : Fin 1) :
    shapeCast S1x1 x h (ix2 u u') = x (ix1 (0 : Fin 1)) :=
  shapeCast_apply x h _ _ (by
    have hu : u.val = 0 := by omega
    have hu' : u'.val = 0 := by omega
    rw [Shape.rowMajor_val_two, Shape.rowMajor_val_one]
    show (0 : ℕ) = u.val * 1 + u'.val
    omega)

/-- An `[8, 128]` tile viewed `[1, 1, 8, 128]` reads `(a, b, p, q)` at `(p, q)`. -/
theorem cast_tile (x : S8x128.Idx → α) (h : S8x128.ShapeCasts S1x1x8x128) (a b : Fin 1) (p : Fin 8) (q : Fin 128) :
    shapeCast S1x1x8x128 x h (ix4 a b p q) = x (ix2 p q) :=
  shapeCast_apply x h _ _ (by
    have ha : a.val = 0 := by omega
    have hb : b.val = 0 := by omega
    rw [Shape.rowMajor_val_four, Shape.rowMajor_val_two]
    show p.val * 128 + q.val = ((a.val * 1 + b.val) * 8 + p.val) * 128 + q.val
    omega)

/-- A `[1, 1]` value spread over an `[8, 128]` tile reads its one entry everywhere. -/
theorem spread_tile (x : S1x1.Idx → α) (h : S1x1.Broadcasts S8x128) (p : Fin 8) (q : Fin 128) :
    broadcastTo S8x128 x h (ix2 p q) = x (ix2 (0 : Fin 1) (0 : Fin 1)) :=
  broadcastTo_apply x h _ _ (fun a => by
    match a with
    | ⟨0, _⟩ => rfl
    | ⟨1, _⟩ => rfl)

end Layout

/-! ## The payloads at an index -/

/-- The reduced index with a column put back is (row, column); with a row put back, (row, the unit column). -/
theorem lift_col (h : S256x1024.Reduces [1] S256) (r : Fin 256) (c : Fin 1024) :
    h.lift (ix1 r) c = ix2 r c := by
  funext a; apply Fin.ext
  match a with
  | ⟨0, _⟩ => rfl
  | ⟨1, _⟩ => rfl

theorem lift_row (h : S256x1.Reduces [0] S1) (u : Fin 1) (r : Fin 256) :
    h.lift (ix1 u) r = ix2 r u := by
  funext a; apply Fin.ext
  match a with
  | ⟨0, _⟩ => rfl
  | ⟨1, _⟩ => rfl

/-- The pointwise part of the kernel over `[256, 1024]` planes, at a pixel. -/
theorem planes_apply (a0 a1 w : FVec Ideal S256x1024 .f32) (t : IVec S256x1024 32) (j : S256x1024.Idx) :
    mulf (select (cmpi .ne t (broadcast S256x1024 255#32))
        (subf (addf (maximumf a0 a1) (log (addf (exp (subf a0 (maximumf a0 a1))) (exp (subf a1 (maximumf a0 a1))))))
          (select (cmpi .eq (minsi (broadcast S256x1024 1#32) (maxsi (broadcast S256x1024 0#32) t)) (broadcast S256x1024 0#32)) a0 a1))
        (broadcast S256x1024 (FloatOps.ofBits (F := Ideal) .f32 0x00000000#32))) w j
      = Cert.Spec.ceK (a0 j) (a1 j) (t j) * w j :=
  pixel_eq (a0 j) (a1 j) (w j) (t j)

/-- The tile's weighted cross-entropy sum, as the kernel computes it from its four loaded blocks. -/
theorem pay5_apply (v0 v2 : Vec Ideal S1x1x256x1024 .f32) (v4 : Vec Ideal S1x256x1024 .i32) (v6 : Vec Ideal S1x256x1024 .f32) (u u' : Fin 1) :
    k1_pay5 (F := Ideal) v0 v2 v4 v6 (ix2 u u')
      = ∑ r : Fin 256, ∑ c : Fin 1024,
          Cert.Spec.ceK (v0 (ix4 (0 : Fin 1) (0 : Fin 1) r c)) (v2 (ix4 (0 : Fin 1) (0 : Fin 1) r c)) (v4 (ix3 (0 : Fin 1) r c)) * v6 (ix3 (0 : Fin 1) r c) := by
  unfold k1_pay5 k1_pay4 k1_pay3
  refine (cast_one _ _ u u').trans ?_
  refine (Ideal.multiReduction_add_single _ _ _ _ _ (ix1 (0 : Fin 1))).trans ?_
  refine Finset.sum_congr rfl fun (r : Fin 256) _ => ?_
  refine (congrArg _ (lift_row _ (0 : Fin 1) r)).trans ?_
  refine (cast_column _ _ r (0 : Fin 1)).trans ?_
  refine (Ideal.multiReduction_add_single _ _ _ _ _ (ix1 r)).trans ?_
  refine Finset.sum_congr rfl fun (c : Fin 1024) _ => ?_
  refine (congrArg _ (lift_col _ r c)).trans ?_
  refine (planes_apply _ _ _ _ (ix2 r c)).trans ?_
  rw [cast_plane v0, cast_plane v2, shapeCast_1ab_ab_apply v4, shapeCast_1ab_ab_apply v6]

/-- The tile's sum spread over its `[1, 1, 8, 128]` block: every entry holds the one value. -/
theorem pay1_apply (w : FVec Ideal S1x1 .f32) (a b : Fin 1) (p : Fin 8) (q : Fin 128) :
    k1_pay1 (F := Ideal) w (ix4 a b p q) = w (ix2 (0 : Fin 1) (0 : Fin 1)) := by
  unfold k1_pay1
  refine (cast_tile _ _ a b p q).trans ?_
  refine (spread_tile _ _ p q).trans ?_
  rw [shapeCast_self]

/-- A row's count of valid pixels, as the kernel computes it from the label block. -/
theorem pay6_apply (v4 : Vec Ideal S1x256x1024 .i32) (r : Fin 256) :
    k1_pay6 (F := Ideal) v4 (ix1 r) = ∑ c : Fin 1024, Cert.Spec.validf (v4 (ix3 (0 : Fin 1) r c)) := by
  unfold k1_pay6 k1_pay4 k1_pay3
  refine (Ideal.multiReduction_add_single _ _ _ _ _ (ix1 r)).trans ?_
  refine Finset.sum_congr rfl fun (c : Fin 1024) _ => ?_
  refine (congrArg _ (lift_col _ r c)).trans ?_
  refine (valid_eq _).trans ?_
  exact congrArg Cert.Spec.validf (shapeCast_1ab_ab_apply v4 _ r c)

/-- The rows' counts added and spread over the tile's block. -/
theorem pay2_apply (v35 : FVec Ideal S256 .f32) (a b : Fin 1) (p : Fin 8) (q : Fin 128) :
    k1_pay2 (F := Ideal) v35 (ix4 a b p q) = ∑ r : Fin 256, v35 (ix1 r) := by
  unfold k1_pay2
  refine (cast_tile _ _ a b p q).trans ?_
  refine (spread_tile _ _ p q).trans ?_
  rw [shapeCast_self]
  refine (cast_one _ _ (0 : Fin 1) (0 : Fin 1)).trans ?_
  refine (Ideal.multiReduction_add_single _ _ _ _ _ (ix1 (0 : Fin 1))).trans ?_
  refine Finset.sum_congr rfl fun (r : Fin 256) _ => ?_
  refine (congrArg _ (lift_row _ (0 : Fin 1) r)).trans ?_
  exact cast_column _ _ r (0 : Fin 1)

/-! ## The blocks -/

-- the buffers' contents when a region is entered, at the extended reals
variable (V : (c : Dev nD) → (b : Ref sig .tc) → Buf (Elt Ideal) ((c : Thread nD τ).loc b))

/-- The image and the tile of 256 rows a grid point works on. -/
def img (t : Fin cfg1.N) : Fin 16 := grid1.coords t 0
def tile (t : Fin cfg1.N) : Fin 4 := grid1.coords t 1

/-- The five windows' block indices at a grid point, decided over the grid: (image, 0, tile, 0) for the logits,
    (image, tile, 0) for the labels and the weights, (image, tile, 0, 0) for the two results. -/
theorem idx_facts : ∀ t : Fin cfg1.N,
    win1_0.index t (0 : Fin 4) = (grid1.coords t 0).val ∧ win1_0.index t (1 : Fin 4) = 0
    ∧ win1_0.index t (2 : Fin 4) = (grid1.coords t 1).val ∧ win1_0.index t (3 : Fin 4) = 0
    ∧ win1_1.index t (0 : Fin 3) = (grid1.coords t 0).val ∧ win1_1.index t (1 : Fin 3) = (grid1.coords t 1).val
    ∧ win1_1.index t (2 : Fin 3) = 0
    ∧ win1_2.index t (0 : Fin 3) = (grid1.coords t 0).val ∧ win1_2.index t (1 : Fin 3) = (grid1.coords t 1).val
    ∧ win1_2.index t (2 : Fin 3) = 0
    ∧ win1_3.index t (0 : Fin 4) = (grid1.coords t 0).val ∧ win1_3.index t (1 : Fin 4) = (grid1.coords t 1).val
    ∧ win1_3.index t (2 : Fin 4) = 0 ∧ win1_3.index t (3 : Fin 4) = 0
    ∧ win1_4.index t (0 : Fin 4) = (grid1.coords t 0).val ∧ win1_4.index t (1 : Fin 4) = (grid1.coords t 1).val
    ∧ win1_4.index t (2 : Fin 4) = 0 ∧ win1_4.index t (3 : Fin 4) = 0 :=
  (by decide +kernel : ∀ t : Fin grid1.N, _)

/-- Every (image, tile) pair is some grid point's. -/
theorem point_onto : ∀ (n : Fin 16) (h : Fin 4), ∃ t : Fin cfg1.N, (grid1.coords t 0).val = n.val ∧ (grid1.coords t 1).val = h.val :=
  (by decide +kernel : ∀ (n : Fin 16) (h : Fin 4), ∃ t : Fin grid1.N, (grid1.coords t 0).val = n.val ∧ (grid1.coords t 1).val = h.val)

/-- The logits window's block at a grid point is rows 256·tile … of both class planes of the point's image. -/
theorem logits_block (c : Dev nD) (t : Fin cfg1.N) (y : S1x2x256x1024.Idx) (i : S16x2x1024x1024.Idx)
    (h0 : (i 0).val = (img t).val) (h1 : (i 1).val = (y 1).val)
    (h2 : (i 2).val = 256 * (tile t).val + (y 2).val) (h3 : (i 3).val = (y 3).val) :
    (iblk1 V c 0 t : Vec Ideal S1x2x256x1024 .f32) y = (V c main_arg0 : S16x2x1024x1024.Idx → EReal) i := by
  obtain ⟨e0, e1, e2, e3, -⟩ := idx_facts t
  have hy : (y 0).val < 1 := (y 0).isLt
  unfold iblk1
  rw [View.read_apply]
  show (V c main_arg0 : S16x2x1024x1024.Idx → EReal) _ = V c main_arg0 i
  congr 1
  funext a
  apply Fin.ext
  match a with
  | ⟨0, _⟩ => show win1_0.index t 0 * 1 + 1 * (y 0).val = (i 0).val; rw [e0, h0]; show _ = (grid1.coords t 0).val; omega
  | ⟨1, _⟩ => show win1_0.index t 1 * 2 + 1 * (y 1).val = (i 1).val; rw [e1, h1]; omega
  | ⟨2, _⟩ => show win1_0.index t 2 * 256 + 1 * (y 2).val = (i 2).val; rw [e2, h2]; show _ = 256 * (grid1.coords t 1).val + _; omega
  | ⟨3, _⟩ => show win1_0.index t 3 * 1024 + 1 * (y 3).val = (i 3).val; rw [e3, h3]; omega

/-- The labels window's block at a grid point is rows 256·tile … of the point's image. -/
theorem labels_block (c : Dev nD) (t : Fin cfg1.N) (y : S1x256x1024.Idx) (i : S16x1024x1024.Idx)
    (h0 : (i 0).val = (img t).val) (h1 : (i 1).val = 256 * (tile t).val + (y 1).val) (h2 : (i 2).val = (y 2).val) :
    (iblk1 V c 1 t : Vec Ideal S1x256x1024 .i32) y = (V c main_arg1 : S16x1024x1024.Idx → BitVec 32) i := by
  obtain ⟨-, -, -, -, e0, e1, e2, -⟩ := idx_facts t
  have hy : (y 0).val < 1 := (y 0).isLt
  unfold iblk1
  rw [View.read_apply]
  show (V c main_arg1 : S16x1024x1024.Idx → BitVec 32) _ = V c main_arg1 i
  congr 1
  funext a
  apply Fin.ext
  match a with
  | ⟨0, _⟩ => show win1_1.index t 0 * 1 + 1 * (y 0).val = (i 0).val; rw [e0, h0]; show _ = (grid1.coords t 0).val; omega
  | ⟨1, _⟩ => show win1_1.index t 1 * 256 + 1 * (y 1).val = (i 1).val; rw [e1, h1]; show _ = 256 * (grid1.coords t 1).val + _; omega
  | ⟨2, _⟩ => show win1_1.index t 2 * 1024 + 1 * (y 2).val = (i 2).val; rw [e2, h2]; omega

/-- The weights window's block likewise. -/
theorem weights_block (c : Dev nD) (t : Fin cfg1.N) (y : S1x256x1024.Idx) (i : S16x1024x1024.Idx)
    (h0 : (i 0).val = (img t).val) (h1 : (i 1).val = 256 * (tile t).val + (y 1).val) (h2 : (i 2).val = (y 2).val) :
    (iblk1 V c 2 t : Vec Ideal S1x256x1024 .f32) y = (V c main_v0 : S16x1024x1024.Idx → EReal) i := by
  obtain ⟨-, -, -, -, -, -, -, e0, e1, e2, -⟩ := idx_facts t
  have hy : (y 0).val < 1 := (y 0).isLt
  unfold iblk1
  rw [View.read_apply]
  show (V c main_v0 : S16x1024x1024.Idx → EReal) _ = V c main_v0 i
  congr 1
  funext a
  apply Fin.ext
  match a with
  | ⟨0, _⟩ => show win1_2.index t 0 * 1 + 1 * (y 0).val = (i 0).val; rw [e0, h0]; show _ = (grid1.coords t 0).val; omega
  | ⟨1, _⟩ => show win1_2.index t 1 * 256 + 1 * (y 1).val = (i 1).val; rw [e1, h1]; show _ = 256 * (grid1.coords t 1).val + _; omega
  | ⟨2, _⟩ => show win1_2.index t 2 * 1024 + 1 * (y 2).val = (i 2).val; rw [e2, h2]; omega

/-! ## What a point writes back, the cover, the arrays -/

/-- The zero offsets of a whole-buffer access at ranks 3 and 4. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The logits block's two loads: class plane 0 and class plane 1 of the tile's rows. -/
theorem plane0_read (c : Dev nD) (t : Fin cfg1.N) (r : Fin 256) (cc : Fin 1024) :
    View.ld (iblk1 V c 0 t : Vec Ideal S1x2x256x1024 .f32) r1_0 (ix4 (0 : Fin 1) (0 : Fin 1) r cc)
      = (V c main_arg0 : S16x2x1024x1024.Idx → EReal) (ix4 (img t) (0 : Fin 2) (Cert.Spec.row (tile t) r) cc) :=
  logits_block V c t _ _ rfl (by show (0 : ℕ) = 0 + 1 * 0; rfl)
    (by show 256 * (tile t).val + r.val = 256 * (tile t).val + (0 + 1 * r.val); omega)
    (by show cc.val = 0 + 1 * cc.val; omega)

theorem plane1_read (c : Dev nD) (t : Fin cfg1.N) (r : Fin 256) (cc : Fin 1024) :
    View.ld (iblk1 V c 0 t : Vec Ideal S1x2x256x1024 .f32) r1_1 (ix4 (0 : Fin 1) (0 : Fin 1) r cc)
      = (V c main_arg0 : S16x2x1024x1024.Idx → EReal) (ix4 (img t) (1 : Fin 2) (Cert.Spec.row (tile t) r) cc) :=
  logits_block V c t _ _ rfl (by show (1 : ℕ) = 1 + 1 * 0; rfl)
    (by show 256 * (tile t).val + r.val = 256 * (tile t).val + (0 + 1 * r.val); omega)
    (by show cc.val = 0 + 1 * cc.val; omega)

/-- The labels and weights blocks at a pixel of the tile. -/
theorem labels_read (c : Dev nD) (t : Fin cfg1.N) (r : Fin 256) (cc : Fin 1024) :
    (iblk1 V c 1 t : Vec Ideal S1x256x1024 .i32) (ix3 (0 : Fin 1) r cc)
      = (V c main_arg1 : S16x1024x1024.Idx → BitVec 32) (ix3 (img t) (Cert.Spec.row (tile t) r) cc) :=
  labels_block V c t _ _ rfl rfl rfl

theorem weights_read (c : Dev nD) (t : Fin cfg1.N) (r : Fin 256) (cc : Fin 1024) :
    (iblk1 V c 2 t : Vec Ideal S1x256x1024 .f32) (ix3 (0 : Fin 1) r cc)
      = (V c main_v0 : S16x1024x1024.Idx → EReal) (ix3 (img t) (Cert.Spec.row (tile t) r) cc) :=
  weights_block V c t _ _ rfl rfl rfl

/-- What a grid point writes back through the first result window is its block of the tiles' sums. -/
theorem num_flushed (c : Dev nD) (t : Fin cfg1.N) :
    (dat1 (F := Ideal) V c).flushed 3 t = ((cfg1.win 3).blk t).view.read (Elt Ideal)
      (Cert.Spec.numArr (V c main_arg0 : S16x2x1024x1024.Idx → EReal) (V c main_arg1 : S16x1024x1024.Idx → BitVec 32)
        (V c main_v0 : S16x1024x1024.Idx → EReal)) := by
  show (cfg1.win 3).cut (grid1.coords t) ((dat1 V c).after 3 t) = _
  rw [after1_3]
  unfold out1_3
  rw [View.canon_unit_zero hz4]
  simp only [View.ld_unit_zero (S := S1x256x1024) hz3]
  funext (j : S1x1x8x128.Idx)
  obtain ⟨a, b, p, q, rfl⟩ : ∃ (a b : Fin 1) (p : Fin 8) (q : Fin 128), j = ix4 a b p q := ⟨j 0, j 1, j 2, j 3, eq_ix4 j⟩
  obtain ⟨-, -, -, -, -, -, -, -, -, -, e0, e1, e2, e3, -⟩ := idx_facts t
  have hemb : (((cfg1.win 3).blk t).view.emb (ix4 a b p q) : S16x4x8x128.Idx) = ix4 (img t) (tile t) p q := by
    funext x; apply Fin.ext
    match x with
    | ⟨0, _⟩ => show win1_3.index t 0 * 1 + 1 * a.val = (grid1.coords t 0).val; rw [e0]; omega
    | ⟨1, _⟩ => show win1_3.index t 1 * 1 + 1 * b.val = (grid1.coords t 1).val; rw [e1]; omega
    | ⟨2, _⟩ => show win1_3.index t 2 * 8 + 1 * p.val = p.val; rw [e2]; omega
    | ⟨3, _⟩ => show win1_3.index t 3 * 128 + 1 * q.val = q.val; rw [e3]; omega
  rw [View.read_apply]
  show k1_pay1 (F := Ideal) _ (ix4 a b p q)
    = Cert.Spec.numArr (V c main_arg0 : S16x2x1024x1024.Idx → EReal) (V c main_arg1 : S16x1024x1024.Idx → BitVec 32)
        (V c main_v0 : S16x1024x1024.Idx → EReal) (((cfg1.win 3).blk t).view.emb (ix4 a b p q))
  rw [hemb]
  refine (pay1_apply _ a b p q).trans ?_
  refine (pay5_apply _ _ _ _ (0 : Fin 1) (0 : Fin 1)).trans ?_
  show _ = Cert.Spec.pnum _ _ _ (img t) (tile t)
  unfold Cert.Spec.pnum
  refine Finset.sum_congr rfl fun r _ => Finset.sum_congr rfl fun cc _ => ?_
  rw [plane0_read, plane1_read, labels_read, weights_read]

/-- … and through the second result window its block of the tiles' valid-pixel counts. -/
theorem den_flushed (c : Dev nD) (t : Fin cfg1.N) :
    (dat1 (F := Ideal) V c).flushed 4 t = ((cfg1.win 4).blk t).view.read (Elt Ideal)
      (Cert.Spec.denArr (V c main_arg1 : S16x1024x1024.Idx → BitVec 32)) := by
  show (cfg1.win 4).cut (grid1.coords t) ((dat1 V c).after 4 t) = _
  rw [after1_4]
  unfold out1_4
  rw [View.canon_unit_zero hz4]
  simp only [View.ld_unit_zero (S := S1x256x1024) hz3]
  funext (j : S1x1x8x128.Idx)
  obtain ⟨a, b, p, q, rfl⟩ : ∃ (a b : Fin 1) (p : Fin 8) (q : Fin 128), j = ix4 a b p q := ⟨j 0, j 1, j 2, j 3, eq_ix4 j⟩
  obtain ⟨-, -, -, -, -, -, -, -, -, -, -, -, -, -, e0, e1, e2, e3⟩ := idx_facts t
  have hemb : (((cfg1.win 4).blk t).view.emb (ix4 a b p q) : S16x4x8x128.Idx) = ix4 (img t) (tile t) p q := by
    funext x; apply Fin.ext
    match x with
    | ⟨0, _⟩ => show win1_4.index t 0 * 1 + 1 * a.val = (grid1.coords t 0).val; rw [e0]; omega
    | ⟨1, _⟩ => show win1_4.index t 1 * 1 + 1 * b.val = (grid1.coords t 1).val; rw [e1]; omega
    | ⟨2, _⟩ => show win1_4.index t 2 * 8 + 1 * p.val = p.val; rw [e2]; omega
    | ⟨3, _⟩ => show win1_4.index t 3 * 128 + 1 * q.val = q.val; rw [e3]; omega
  rw [View.read_apply]
  show k1_pay2 (F := Ideal) _ (ix4 a b p q)
    = Cert.Spec.denArr (V c main_arg1 : S16x1024x1024.Idx → BitVec 32) (((cfg1.win 4).blk t).view.emb (ix4 a b p q))
  rw [hemb]
  refine (pay2_apply _ a b p q).trans ?_
  show _ = Cert.Spec.pden _ (img t) (tile t)
  unfold Cert.Spec.pden
  refine Finset.sum_congr rfl fun r _ => ?_
  refine (pay6_apply _ r).trans ?_
  refine Finset.sum_congr rfl fun cc _ => ?_
  rw [labels_read]

/-- Every index of a result array lies in the block of the grid point of its image and tile. -/
theorem num_cover (i : S16x4x8x128.Idx) :
    ∃ t : Fin cfg1.N, (cfg1.win 3).flush t = true ∧ i ∈ ((cfg1.win 3).blk t).view.set := by
  obtain ⟨t, ht0, ht1⟩ := point_onto (i 0) (i 1)
  obtain ⟨-, -, -, -, -, -, -, -, -, -, e0, e1, e2, e3, -⟩ := idx_facts t
  refine ⟨t, flush1_3 t, ?_⟩
  show i ∈ ((View.whole main_v1_0).slice (win1_3.rect t)).set
  rw [View.set_slice_whole, Rect.mem_set_unit]
  have h2 : (i 2).val < 8 := (i 2).isLt
  have h3 : (i 3).val < 128 := (i 3).isLt
  intro x
  match x with
  | ⟨0, _⟩ => show win1_3.index t 0 * 1 ≤ (i 0).val ∧ (i 0).val < win1_3.index t 0 * 1 + 1; rw [e0]; omega
  | ⟨1, _⟩ => show win1_3.index t 1 * 1 ≤ (i 1).val ∧ (i 1).val < win1_3.index t 1 * 1 + 1; rw [e1]; omega
  | ⟨2, _⟩ => show win1_3.index t 2 * 8 ≤ (i 2).val ∧ (i 2).val < win1_3.index t 2 * 8 + 8; rw [e2]; omega
  | ⟨3, _⟩ => show win1_3.index t 3 * 128 ≤ (i 3).val ∧ (i 3).val < win1_3.index t 3 * 128 + 128; rw [e3]; omega

theorem den_cover (i : S16x4x8x128.Idx) :
    ∃ t : Fin cfg1.N, (cfg1.win 4).flush t = true ∧ i ∈ ((cfg1.win 4).blk t).view.set := by
  obtain ⟨t, ht0, ht1⟩ := point_onto (i 0) (i 1)
  obtain ⟨-, -, -, -, -, -, -, -, -, -, -, -, -, -, e0, e1, e2, e3⟩ := idx_facts t
  refine ⟨t, flush1_4 t, ?_⟩
  show i ∈ ((View.whole main_v1_1).slice (win1_4.rect t)).set
  rw [View.set_slice_whole, Rect.mem_set_unit]
  have h2 : (i 2).val < 8 := (i 2).isLt
  have h3 : (i 3).val < 128 := (i 3).isLt
  intro x
  match x with
  | ⟨0, _⟩ => show win1_4.index t 0 * 1 ≤ (i 0).val ∧ (i 0).val < win1_4.index t 0 * 1 + 1; rw [e0]; omega
  | ⟨1, _⟩ => show win1_4.index t 1 * 1 ≤ (i 1).val ∧ (i 1).val < win1_4.index t 1 * 1 + 1; rw [e1]; omega
  | ⟨2, _⟩ => show win1_4.index t 2 * 8 ≤ (i 2).val ∧ (i 2).val < win1_4.index t 2 * 8 + 8; rw [e2]; omega
  | ⟨3, _⟩ => show win1_4.index t 3 * 128 ≤ (i 3).val ∧ (i 3).val < win1_4.index t 3 * 128 + 128; rw [e3]; omega

/-- After the second region, its first output array holds every tile's weighted cross-entropy sum, of the logits, labels
    and weight arrays the region was entered with. -/
theorem num_final (c : Dev nD) :
    ((dat1 (F := Ideal) V c).arrAt 3 cfg1.N : S16x4x8x128.Idx → EReal)
      = Cert.Spec.numArr (V c main_arg0 : S16x2x1024x1024.Idx → EReal) (V c main_arg1 : S16x1024x1024.Idx → BitVec 32)
          (V c main_v0 : S16x1024x1024.Idx → EReal) :=
  (dat1 (F := Ideal) V c).arrAt_eq_of_cover 3 _ (fun t _ => num_flushed V c t) num_cover

/-- … and its second output array every tile's count of valid pixels. -/
theorem den_final (c : Dev nD) :
    ((dat1 (F := Ideal) V c).arrAt 4 cfg1.N : S16x4x8x128.Idx → EReal)
      = Cert.Spec.denArr (V c main_arg1 : S16x1024x1024.Idx → BitVec 32) :=
  (dat1 (F := Ideal) V c).arrAt_eq_of_cover 4 _ (fun t _ => den_flushed V c t) den_cover

end Cert.KernelIdeal.Ce

end
-- ==== Proof.KTail.lean ====
/-
  The kernel program's result: after the two regions, the host operations average each tile's 8 × 128 block (every entry
  of which holds the tile's sum, so the average is that sum), add the 16 × 4 tiles, and form the loss.
-/
import proofs.«408372_j81527069213368_1_alg».proof.Proof.KRun
import proofs.«408372_j81527069213368_1_alg».proof.Proof.Mask
import proofs.«408372_j81527069213368_1_alg».proof.Proof.Ce
import Idealize.ShloMosaic.Lib.StableHlo.Run

set_option maxRecDepth 16384

noncomputable section

open scoped BigOperators

namespace Cert.KernelIdeal.Tail

open Idealize.ShloMosaic Idealize.ShloMosaic.TcCoe Idealize.SL.Sem Idealize.ShloMosaic.ValueIdx Idealize.ShloMosaic.StableHlo
open Cert.KernelIdeal Cert.KernelIdeal.Gen

/-! ## The host operations after the regions, as one function of the two partial arrays -/

section Generic

variable {F : FTy → Type} [FloatOps F]

/-- The mean over each tile's 8 × 128 block, then the sum over the 16 × 4 tiles. -/
def tileTotal (A : (⟨S16x4x8x128, .f32⟩ : BufTy).Contents (Elt F)) : (⟨S_, .f32⟩ : BufTy).Contents (Elt F) :=
  Host.reduceAdd
    (Host.divf (Host.reduceAdd A (constant (F := F) S_ .f32 0x00000000#32) reducesTo_S16x4x8x128_S16x4_d2_3 h_S_)
      (broadcastInDim S16x4 ![] bcast_S_S16x4 (constant (F := F) S_ .f32 0x44800000#32)))
    (constant (F := F) S_ .f32 0x00000000#32) reducesTo_S16x4_S_d0_1 h_S_

/-- The loss of the two totals: the numerator over the count (at least one) where the count is positive, else over the
    pixel count. -/
def tailFn (A B : (⟨S16x4x8x128, .f32⟩ : BufTy).Contents (Elt F)) : (⟨S_, .f32⟩ : BufTy).Contents (Elt F) :=
  select (cmpf (F := F) .ogt (tileTotal B) (constant (F := F) S_ .f32 0x00000000#32))
    (Host.divf (tileTotal A) (maximumf (tileTotal B) (constant (F := F) S_ .f32 0x3F800000#32)))
    (Host.divf (tileTotal A) (constant (F := F) S_ .f32 0x4B800000#32))

set_option maxHeartbeats 4000000 in
/-- From any contents `W`, the result buffer after the two stretches of host operations is that function of the two partial
    arrays' contents in `W`. -/
theorem tail_after (W : Valuation τ sig (Elt F)) :
    StableHlo.after hostOps2_1 (StableHlo.after hostOps2 W) (Proc.devRef .tc main_v14)
      = tailFn (W (Proc.devRef .tc main_v1_0)) (W (Proc.devRef .tc main_v1_1)) := by
  after_results_simp
  rfl

variable (m : (ℓ : Loc nD τ sig) → Buf (Elt F) ℓ) (ρ : Dev nD → PrngReg)

/-- The result buffer after the last host operation is that function of the two partial arrays as the second region
    leaves them. -/
theorem tail_eq (c : Dev nD) :
    W4 m ρ c (Proc.devRef .tc main_v14)
      = tailFn (W2 m ρ c (Proc.devRef .tc main_v1_0)) (W2 m ρ c (Proc.devRef .tc main_v1_1)) :=
  tail_after (W2 m ρ c)

end Generic

/-! ## The tail read at the extended reals -/

/-- A positive multiple of an infinity is that infinity. -/
theorem succ_nsmul_top : ∀ n : ℕ, (n + 1) • (⊤ : EReal) = ⊤
  | 0 => by simp
  | n + 1 => by rw [succ_nsmul, succ_nsmul_top n]; rfl
theorem succ_nsmul_bot : ∀ n : ℕ, (n + 1) • (⊥ : EReal) = ⊥
  | 0 => by simp
  | n + 1 => by rw [succ_nsmul, succ_nsmul_bot n]; rfl

/-- The divisor of the block mean is 1024. -/
theorem c1024_eq : Ideal.ofBits .f32 0x44800000#32 = ((1024 : ℝ) : EReal) := by
  simp [Ideal.ofBits, Ideal.ieee]
  exact_mod_cast (by norm_num : (8388608 : ℝ) * (2 ^ 13)⁻¹ = 1024)

/-- The mean of 1024 copies of one extended real is that extended real (the infinities included). -/
theorem mean_const (p : EReal) :
    Ideal.div (0 + ∑ _a : Fin 8, ∑ _b : Fin 128, p) (Ideal.ofBits .f32 0x44800000#32) = p := by
  rw [c1024_eq, Ideal.div_coe (by norm_num : (1024 : ℝ) ≠ 0), zero_add]
  simp only [Finset.sum_const, Finset.card_univ, Fintype.card_fin]
  induction p using EReal.rec with
  | bot =>
    rw [show (128 : ℕ) = 127 + 1 from rfl, succ_nsmul_bot, show (8 : ℕ) = 7 + 1 from rfl, succ_nsmul_bot]
    exact EReal.bot_mul_coe_of_pos (by norm_num)
  | coe r =>
    rw [← EReal.coe_nsmul, ← EReal.coe_nsmul, ← EReal.coe_mul]
    congr 1
    simp only [nsmul_eq_mul]
    push_cast
    ring
  | top =>
    rw [show (128 : ℕ) = 127 + 1 from rfl, succ_nsmul_top, show (8 : ℕ) = 7 + 1 from rfl, succ_nsmul_top]
    exact EReal.top_mul_coe_of_pos (by norm_num)

/-- The host's sum over the two block axes at a tile: the initial value plus the sum over the tile's 8 × 128 entries. -/
theorem sum_tile (h : S16x4x8x128.ReducesTo [2, 3] S16x4) (x : S16x4x8x128.Idx → EReal) (init : EReal) (j : S16x4.Idx) :
    Ideal.hostReduceAdd h x init j = init + ∑ a : Fin 8, ∑ b : Fin 128, x (ix4 (j 0) (j 1) a b) := by
  unfold Ideal.hostReduceAdd
  congr 1
  rw [← Finset.sum_product']
  have hmem : ∀ i : S16x4x8x128.Idx, h.drop i = j → (i 0).val = (j 0).val ∧ (i 1).val = (j 1).val := fun i e =>
    ⟨congrArg (fun q : S16x4.Idx => (q 0).val) e, congrArg (fun q : S16x4.Idx => (q 1).val) e⟩
  refine Finset.sum_bij' (fun i _ => (i 2, i 3)) (fun p _ => ix4 (j 0) (j 1) p.1 p.2) (fun _ _ => by simp) ?_ ?_ (fun _ _ => rfl) ?_
  · intro p _
    refine Finset.mem_filter.mpr ⟨Finset.mem_univ _, funext fun b => Fin.ext ?_⟩
    match b with
    | ⟨0, _⟩ => rfl
    | ⟨1, _⟩ => rfl
  · intro i hi
    obtain ⟨h0, h1⟩ := hmem i (Finset.mem_filter.mp hi).2
    funext a
    refine Fin.ext ?_
    match a with
    | ⟨0, _⟩ => exact h0.symm
    | ⟨1, _⟩ => exact h1.symm
    | ⟨2, _⟩ => rfl
    | ⟨3, _⟩ => rfl
  · intro i hi
    obtain ⟨h0, h1⟩ := hmem i (Finset.mem_filter.mp hi).2
    refine congrArg x (funext fun a => Fin.ext ?_)
    match a with
    | ⟨0, _⟩ => exact h0
    | ⟨1, _⟩ => exact h1
    | ⟨2, _⟩ => rfl
    | ⟨3, _⟩ => rfl

/-- Where every entry of a tile's block holds the tile's value `p n h`, the mean over the blocks then the sum over the tiles
    is the sum of the tiles' values. -/
theorem tileTotal_apply (p : Fin 16 → Fin 4 → EReal) (i : S_.Idx) :
    tileTotal (F := Ideal) (fun j : S16x4x8x128.Idx => p (j 0) (j 1)) i = ∑ n : Fin 16, ∑ h : Fin 4, p n h := by
  unfold tileTotal
  simp only [Host.reduceAdd, Ideal.hostReduceAdd_def]
  rw [Ideal.hostReduceAdd_total _ (fun b => b.elim0), sum_idx2]
  have e0 : (constant (F := Ideal) S_ .f32 0x00000000#32) (Shape.Idx.first h_S_) = 0 := Ideal.ofBits_zero_f32
  refine Eq.trans (congrArg₂ (· + ·) e0 (Finset.sum_congr rfl fun n _ => Finset.sum_congr rfl fun h _ => ?_)) (zero_add _)
  show Ideal.div (Ideal.hostReduceAdd reducesTo_S16x4x8x128_S16x4_d2_3 (fun j : S16x4x8x128.Idx => p (j 0) (j 1))
      (Ideal.ofBits .f32 0x00000000#32) (ix2 n h)) (Ideal.ofBits .f32 0x44800000#32) = p n h
  rw [sum_tile, Ideal.ofBits_zero_f32]
  exact mean_const (p n h)

/-! ## The arrays the regions are entered with and leave, read back to the arguments -/

variable (m : (ℓ : Loc nD τ sig) → Buf (Elt Ideal) ℓ) (ρ : Dev nD → PrngReg)

/-- The second region is entered with the logits as launched (the first region does not touch them) … -/
theorem V1_arg0 (c : Dev nD) : V1 m ρ c main_arg0 = m ((c.tc : Thread nD τ).loc main_arg0) :=
  (W1_of_ne m ρ c main_arg0 (by decide)).trans rfl

/-- … with the labels as launched (the first region only reads them) … -/
theorem V1_arg1 (c : Dev nD) : V1 m ρ c main_arg1 = m ((c.tc : Thread nD τ).loc main_arg1) :=
  (W1_arr m ρ c 0).trans (((dat0 (V0 m ρ) c).arrAt_in 0 rfl _).trans (A_eq0 (V0 m ρ) c 0))

/-- … and with the weight map of the launched labels, which the first region left. -/
theorem V1_v0 (c : Dev nD) :
    (V1 m ρ c main_v0 : S16x1024x1024.Idx → EReal)
      = Cert.Spec.weightArr (m ((c.tc : Thread nD τ).loc main_arg1) : S16x1024x1024.Idx → BitVec 32) :=
  (W1_arr m ρ c 1).trans (Cert.KernelIdeal.Mask.weight_final (V0 m ρ) c)

/-- The second region leaves the tiles' weighted sums and counts, of the launched arguments. -/
theorem W2_num (c : Dev nD) :
    (W2 m ρ c (Proc.devRef .tc main_v1_0) : S16x4x8x128.Idx → EReal)
      = Cert.Spec.numArr (m ((c.tc : Thread nD τ).loc main_arg0) : S16x2x1024x1024.Idx → EReal)
          (m ((c.tc : Thread nD τ).loc main_arg1) : S16x1024x1024.Idx → BitVec 32)
          (Cert.Spec.weightArr (m ((c.tc : Thread nD τ).loc main_arg1) : S16x1024x1024.Idx → BitVec 32)) := by
  refine (W2_arr m ρ c 3).trans ((Cert.KernelIdeal.Ce.num_final (V1 m ρ) c).trans ?_)
  rw [V1_arg0, V1_arg1, V1_v0]

theorem W2_den (c : Dev nD) :
    (W2 m ρ c (Proc.devRef .tc main_v1_1) : S16x4x8x128.Idx → EReal)
      = Cert.Spec.denArr (m ((c.tc : Thread nD τ).loc main_arg1) : S16x1024x1024.Idx → BitVec 32) := by
  refine (W2_arr m ρ c 4).trans ((Cert.KernelIdeal.Ce.den_final (V1 m ρ) c).trans ?_)
  rw [V1_arg1]

/-- The result buffer's last contents: the loss summed tile by tile, of the two argument arrays. -/
theorem result_eq (c : Dev nD) :
    (W4 (F := Ideal) m ρ c (Proc.devRef .tc main_v14) : S_.Idx → EReal)
      = fun _ => Cert.Spec.LK (m ((c.tc : Thread nD τ).loc main_arg0) : S16x2x1024x1024.Idx → EReal)
          (m ((c.tc : Thread nD τ).loc main_arg1) : S16x1024x1024.Idx → BitVec 32) := by
  rw [tail_eq, W2_num, W2_den]
  funext i
  show Scalar.select (Ideal.cmp .ogt (tileTotal (F := Ideal) (Cert.Spec.denArr _) i) (Ideal.ofBits .f32 0x00000000#32))
      (Ideal.div (tileTotal (F := Ideal) (Cert.Spec.numArr _ _ _) i) (max (tileTotal (F := Ideal) (Cert.Spec.denArr _) i) Cert.Spec.one32))
      (Ideal.div (tileTotal (F := Ideal) (Cert.Spec.numArr _ _ _) i) Cert.Spec.cPix) = _
  unfold Cert.Spec.numArr Cert.Spec.denArr
  rw [tileTotal_apply, tileTotal_apply, Ideal.ofBits_zero_f32]
  rfl

end Cert.KernelIdeal.Tail

end
-- ==== Proof.RefImports.lean ====
/-
  The reference program's run and its read-at-an-index lemmas, gathered under one import for the modules
  that relate the reference's result to the specification.
-/
import proofs.«408372_j81527069213368_1_alg».proof.Proof.RefRun
import proofs.«408372_j81527069213368_1_alg».proof.Proof.RefRead
-- ==== Proof.RefWindow.lean ====
/-
  A 1 × 5 × 5 window reduction with stride one and padding two on the two image axes, folding `max` from `⊥`
  (`min` from `⊤`) with the padding at that same value, is the 5 × 5 dilation (erosion) of each image: the fold
  visits the 25 window positions once each, and a position outside the image contributes the fold's unit.

  The proof compares the two sides through their upper (lower) bounds: a left fold of `max` from `⊥` lies below `b`
  exactly when every term does, and so does a finite supremum; the terms of the fold, indexed by the row-major
  positions of the window shape 1 × 5 × 5, are the terms of the supremum, indexed by the pairs of offsets, because every
  window position is `(0, i, k)` for one pair `(i, k)`.
-/
import proofs.«408372_j81527069213368_1_alg».proof.Proof.Spec
import Idealize.ShloMosaic.PureOps

noncomputable section

namespace Cert.RefWindow

open Idealize.ShloMosaic Idealize.ShloMosaic.ValueIdx Cert.Spec

/-- A left fold of `max` from `v` lies below a bound exactly when `v` and every term do (induction on the list:
    one step replaces the start by its maximum with the head's term). -/
theorem foldl_max_le_iff {ι : Type} (g : ι → EReal) (b : EReal) :
    ∀ (l : List ι) (v : EReal), (l.foldl (fun r n => max r (g n)) v ≤ b) ↔ v ≤ b ∧ ∀ n ∈ l, g n ≤ b
  | [], v => by simp
  | a :: l, v => by
    rw [List.foldl_cons, foldl_max_le_iff g b l, max_le_iff]
    simp [and_assoc]

/-- A left fold of `min` from `v` lies above a bound exactly when `v` and every term do. -/
theorem le_foldl_min_iff {ι : Type} (g : ι → EReal) (b : EReal) :
    ∀ (l : List ι) (v : EReal), (b ≤ l.foldl (fun r n => min r (g n)) v) ↔ b ≤ v ∧ ∀ n ∈ l, b ≤ g n
  | [], v => by simp
  | a :: l, v => by
    rw [List.foldl_cons, le_foldl_min_iff g b l, le_min_iff]
    simp [and_assoc]

/-- The window's shape. -/
abbrev SW : Shape := ⟨3, ![1, 5, 5]⟩

/-- Every window position is `(0, i, k)`: the leading axis of the window has one coordinate. -/
theorem win_cases (w : SW.Idx) : ∃ i k : Fin 5, w = ix3 (0 : Fin 1) i k :=
  ⟨w 1, w 2, (eq_ix3 w).trans (congrArg (fun z : Fin 1 => ix3 z (w 1) (w 2)) (Subsingleton.elim _ _))⟩

/-- The coordinates, in the padded operand, of window position `w` of the window of the result element `(n, r, c)`:
    on each axis the result coordinate times the stride one, plus the window coordinate. -/
abbrev pos (n : Fin 16) (r c : Fin 1024) (w : SW.Idx) (hr : ST.rank = ST.rank) : Fin ST.rank → Nat := fun a =>
  ((ix3 n r c : ST.Idx) (a.cast hr)).val * (![1, 1, 1] : Fin 3 → Nat) a + (w a).val

/-- The term the fold takes at window position `(0, i, k)` of the window at `(n, r, c)`. On the image axis the padded
    coordinate is `r + i` with two cells of padding below, so it names an operand element exactly when
    `2 ≤ r + i < 1026`, which is `inAxis r i`, and the element is then `shift r i`; likewise for the columns; the leading
    axis has no padding and a window of one, so it is always inside, at image `n`. Outside, the term is the padding
    value `v`. -/
theorem term_eq (x : ST.Idx → EReal) (v : EReal) (n : Fin 16) (r c : Fin 1024) (w : SW.Idx) (i k : Fin 5)
    (hw : w = ix3 (0 : Fin 1) i k) (hr : ST.rank = ST.rank) :
    (if hin : ∀ a, (![0, 2, 2] : Fin 3 → Nat) a ≤ pos n r c w hr a
          ∧ pos n r c w hr a - (![0, 2, 2] : Fin 3 → Nat) a < ST.size a then
        x (fun a => ⟨pos n r c w hr a - (![0, 2, 2] : Fin 3 → Nat) a, (hin a).2⟩) else v)
      = if h : inAxis r i ∧ inAxis c k then x (ix3 n (shift r i h.1) (shift c k h.2)) else v := by
  subst hw
  by_cases h : inAxis r i ∧ inAxis c k
  · have hin : ∀ a, (![0, 2, 2] : Fin 3 → Nat) a ≤ pos n r c (ix3 (0 : Fin 1) i k) hr a
          ∧ pos n r c (ix3 (0 : Fin 1) i k) hr a - (![0, 2, 2] : Fin 3 → Nat) a < ST.size a := by
      obtain ⟨⟨h1, h2⟩, h3, h4⟩ := h
      intro a
      match a with
      | ⟨0, _⟩ => show 0 ≤ n.val * 1 + 0 ∧ n.val * 1 + 0 - 0 < 16; omega
      | ⟨1, _⟩ => show 2 ≤ r.val * 1 + i.val ∧ r.val * 1 + i.val - 2 < 1024; omega
      | ⟨2, _⟩ => show 2 ≤ c.val * 1 + k.val ∧ c.val * 1 + k.val - 2 < 1024; omega
    rw [dif_pos h, dif_pos hin]
    refine congrArg x (funext fun a => ?_)
    match a with
    | ⟨0, _⟩ => exact Fin.ext (show n.val * 1 + 0 - 0 = n.val by omega)
    | ⟨1, _⟩ => exact Fin.ext (show r.val * 1 + i.val - 2 = r.val + i.val - 2 by omega)
    | ⟨2, _⟩ => exact Fin.ext (show c.val * 1 + k.val - 2 = c.val + k.val - 2 by omega)
  · rw [dif_neg h, dif_neg]
    intro hin
    apply h
    have h1 : 2 ≤ r.val * 1 + i.val ∧ r.val * 1 + i.val - 2 < 1024 := hin 1
    have h2 : 2 ≤ c.val * 1 + k.val ∧ c.val * 1 + k.val - 2 < 1024 := hin 2
    unfold inAxis
    omega

/-- The window maximum from `⊥`: the dilation of image `j 0` at `(j 1, j 2)`. Both sides have the same upper bounds:
    the fold's are the common upper bounds of its 25 terms, one for each row-major position of the window shape, and
    the supremum's are the common upper bounds of its 25 terms, one for each pair of offsets; the position of
    `(0, i, k)` carries the term of the pair `(i, k)`, and every position is of that form. -/
theorem reduceWindow_max (x : ST.Idx → EReal) (init : (⟨0, ![]⟩ : Shape).Idx → EReal) (hinit : ∀ i, init i = ⊥)
    (h : ST.ReduceWindows ![1, 5, 5] ![1, 1, 1] ![0, 2, 2] ![0, 2, 2] ST) (hu : 0 < (⟨0, ![]⟩ : Shape).numel) (j : ST.Idx) :
    Host.reduceWindow (s := ST) (t := ST) (u := ⟨0, ![]⟩) (FloatOps.maximumf (F := Ideal) (φ := .f32))
        ![1, 5, 5] ![1, 1, 1] ![0, 2, 2] ![0, 2, 2] x init h hu j
      = dilOf (fun r c => x (ix3 (j 0) r c)) (j 1) (j 2) := by
  obtain ⟨n, r, c, rfl⟩ : ∃ (n : Fin 16) (r c : Fin 1024), j = ix3 n r c := ⟨j 0, j 1, j 2, eq_ix3 j⟩
  show _ = dilOf (fun r' c' => x (ix3 n r' c')) r c
  refine eq_of_forall_ge_iff fun b => ?_
  unfold Host.reduceWindow dilOf
  rw [hinit]
  refine (foldl_max_le_iff _ b _ _).trans ?_
  rw [Finset.sup_le_iff]
  constructor
  · rintro ⟨-, H⟩ ik -
    have e := H (SW.rowMajor (ix3 (0 : Fin 1) ik.1 ik.2)) (List.mem_finRange _)
    exact (term_eq x ⊥ n r c _ ik.1 ik.2 (Equiv.symm_apply_apply _ _) h.1).symm.trans_le e
  · intro H
    refine ⟨bot_le, fun m _ => ?_⟩
    obtain ⟨i, k, hw⟩ := win_cases (SW.rowMajor.symm m)
    exact (term_eq x ⊥ n r c _ i k hw h.1).trans_le (H (i, k) (Finset.mem_univ _))

/-- The window minimum from `⊤`: the erosion of image `j 0` at `(j 1, j 2)`. The order dual of the maximum's argument:
    both sides have the same lower bounds. -/
theorem reduceWindow_min (x : ST.Idx → EReal) (init : (⟨0, ![]⟩ : Shape).Idx → EReal) (hinit : ∀ i, init i = ⊤)
    (h : ST.ReduceWindows ![1, 5, 5] ![1, 1, 1] ![0, 2, 2] ![0, 2, 2] ST) (hu : 0 < (⟨0, ![]⟩ : Shape).numel) (j : ST.Idx) :
    Host.reduceWindow (s := ST) (t := ST) (u := ⟨0, ![]⟩) (FloatOps.minimumf (F := Ideal) (φ := .f32))
        ![1, 5, 5] ![1, 1, 1] ![0, 2, 2] ![0, 2, 2] x init h hu j
      = eroOf (fun r c => x (ix3 (j 0) r c)) (j 1) (j 2) := by
  obtain ⟨n, r, c, rfl⟩ : ∃ (n : Fin 16) (r c : Fin 1024), j = ix3 n r c := ⟨j 0, j 1, j 2, eq_ix3 j⟩
  show _ = eroOf (fun r' c' => x (ix3 n r' c')) r c
  refine eq_of_forall_le_iff fun b => ?_
  unfold Host.reduceWindow eroOf
  rw [hinit]
  refine (le_foldl_min_iff _ b _ _).trans ?_
  rw [Finset.le_inf_iff]
  constructor
  · rintro ⟨-, H⟩ ik -
    have e := H (SW.rowMajor (ix3 (0 : Fin 1) ik.1 ik.2)) (List.mem_finRange _)
    exact e.trans_eq (term_eq x ⊤ n r c _ ik.1 ik.2 (Equiv.symm_apply_apply _ _) h.1)
  · intro H
    refine ⟨le_top, fun m _ => ?_⟩
    obtain ⟨i, k, hw⟩ := win_cases (SW.rowMajor.symm m)
    exact (H (i, k) (Finset.mem_univ _)).trans_eq (term_eq x ⊤ n r c _ i k hw h.1).symm

end Cert.RefWindow

end
-- ==== Proof.RefPixel.lean ====
/-
  The reference's per-pixel cross-entropy stage: the log-softmax over the two classes, the take along the class axis at the
  clipped label, the negation and the mask of the ignored label, read at one pixel.
-/
import proofs.«408372_j81527069213368_1_alg».proof.Proof.RefImports
import proofs.«408372_j81527069213368_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefPixel

open Idealize.ShloMosaic Idealize.ShloMosaic.TcCoe Idealize.SL.Sem Idealize.ShloMosaic.ValueIdx
open Cert.ReferenceIdeal Cert.ReferenceIdeal.Gen Cert.ReferenceIdeal.ReadP

/-! ## The maximum over the two classes -/

/-- The fold of a maximum from the bottom over the two classes is the maximum of the two. -/
theorem fold_max_two (f : Fin 2 → EReal) :
    (Finset.univ : Finset (Fin 2)).fold (FloatOps.maximumf (F := Ideal) (φ := .f32)) (⊥ : EReal) f = max (f 0) (f 1) := by
  have hu : (Finset.univ : Finset (Fin 2)) = insert 0 {1} := by decide
  rw [hu, Finset.fold_insert (by decide), Finset.fold_singleton]
  show max (f 0) (max (f 1) ⊥) = _
  rw [max_bot_right]

/-- The word of minus infinity is the bottom of the extended reals. -/
theorem bot32 : Ideal.ofBits .f32 0xFF800000#32 = (⊥ : EReal) := by
  simp [Ideal.ofBits, Ideal.ieee]

/-- A pixel with the class coordinate put back on axis 1. -/
theorem lift_class (h : S16x2x1024x1024.Reduces [1] S16x1024x1024) (n : Fin 16) (r c : Fin 1024) (k : Fin 2) :
    h.lift (ix3 n r c) k = ix4 n k r c := by
  funext a; apply Fin.ext
  match a with
  | ⟨0, _⟩ => rfl
  | ⟨1, _⟩ => rfl
  | ⟨2, _⟩ => rfl
  | ⟨3, _⟩ => rfl

/-- The reduce with a maximum body over the class axis, at a pixel, is the maximum of the pixel's two logits. -/
theorem max_stage0 (x0 : (⟨S16x2x1024x1024, .f32⟩ : BufTy).Contents (Elt Ideal)) (n : Fin 16) (r c : Fin 1024) :
    val_main_call0_v0 (F := Ideal) x0 (ix3 n r c)
      = max ((x0 : S16x2x1024x1024.Idx → EReal) (ix4 n 0 r c)) ((x0 : S16x2x1024x1024.Idx → EReal) (ix4 n 1 r c)) := by
  have h : S16x2x1024x1024.Reduces [1] S16x1024x1024 := by decide
  unfold val_main_call0_v0
  refine (Host.reduce_eq_fold_single FloatOps.maximumf _ _ _ h _ (ix3 n r c)).trans ?_
  rw [val_main_call0_cst_apply, Ideal.ofBits_def, bot32]
  refine (fold_max_two _).trans ?_
  show max ((x0 : S16x2x1024x1024.Idx → EReal) (h.lift (ix3 n r c) (0 : Fin 2))) ((x0 : S16x2x1024x1024.Idx → EReal) (h.lift (ix3 n r c) (1 : Fin 2))) = _
  rw [lift_class, lift_class]

/-- The maximum stage of the log-softmax at a pixel. -/
theorem max_stage (x0 : (⟨S16x2x1024x1024, .f32⟩ : BufTy).Contents (Elt Ideal)) (n : Fin 16) (r c : Fin 1024) :
    val_main_call0_v2 (F := Ideal) x0 (ix3 n r c)
      = max ((x0 : S16x2x1024x1024.Idx → EReal) (ix4 n 0 r c)) ((x0 : S16x2x1024x1024.Idx → EReal) (ix4 n 1 r c)) := by
  rw [val_main_call0_v2_apply, val_main_call0_v1_apply, val_main_call0_cst_0_apply, max_stage0, Ideal.ofBits_def, bot32,
    Ideal.maximumf_def, max_bot_left]

/-! ## The log-softmax -/

/-- The logit minus the pixel's maximum. -/
theorem sub_stage (x0 : (⟨S16x2x1024x1024, .f32⟩ : BufTy).Contents (Elt Ideal)) (n : Fin 16) (k : Fin 2) (r c : Fin 1024) :
    val_main_call0_v5 (F := Ideal) x0 (ix4 n k r c)
      = (x0 : S16x2x1024x1024.Idx → EReal) (ix4 n k r c)
        - max ((x0 : S16x2x1024x1024.Idx → EReal) (ix4 n 0 r c)) ((x0 : S16x2x1024x1024.Idx → EReal) (ix4 n 1 r c)) := by
  rw [val_main_call0_v5_apply, val_main_call0_v4_apply, val_main_call0_v3_apply, Ideal.subf_def]
  have e : idx_main_call0_v3 (idx_main_call0_v4 (ix4 n k r c)) = ix3 n r c :=
    funext fun a => Fin.ext (by match a with | ⟨0, _⟩ => rfl | ⟨1, _⟩ => rfl | ⟨2, _⟩ => rfl)
  rw [e, max_stage]

/-- The sum over the two classes of the exponentials of the shifted logits. -/
theorem sum_stage (x0 : (⟨S16x2x1024x1024, .f32⟩ : BufTy).Contents (Elt Ideal)) (n : Fin 16) (r c : Fin 1024) :
    val_main_call0_v7 (F := Ideal) x0 (ix3 n r c)
      = Ideal.exp ((x0 : S16x2x1024x1024.Idx → EReal) (ix4 n 0 r c)
          - max ((x0 : S16x2x1024x1024.Idx → EReal) (ix4 n 0 r c)) ((x0 : S16x2x1024x1024.Idx → EReal) (ix4 n 1 r c)))
        + Ideal.exp ((x0 : S16x2x1024x1024.Idx → EReal) (ix4 n 1 r c)
          - max ((x0 : S16x2x1024x1024.Idx → EReal) (ix4 n 0 r c)) ((x0 : S16x2x1024x1024.Idx → EReal) (ix4 n 1 r c))) := by
  rw [val_main_call0_v7_apply, val_main_call0_cst_1_apply, Ideal.ofBits_def, Ideal.ofBits_zero_f32, zero_add, Fin.sum_univ_two]
  have e : ∀ k : Fin 2, idx_main_call0_v7 (ix3 n r c) k = ix4 n k r c := fun k =>
    funext fun a => Fin.ext (by match a with | ⟨0, _⟩ => rfl | ⟨1, _⟩ => rfl | ⟨2, _⟩ => rfl | ⟨3, _⟩ => rfl)
  rw [e, e, val_main_call0_v6_apply, val_main_call0_v6_apply, sub_stage, sub_stage, Ideal.hostUnary_exp_def, Ideal.hostUnary_exp_def]

/-- The log-softmax at a pixel and a class: the shifted logit minus the logarithm of the sum. -/
theorem lsm_stage (x0 : (⟨S16x2x1024x1024, .f32⟩ : BufTy).Contents (Elt Ideal)) (n : Fin 16) (k : Fin 2) (r c : Fin 1024) :
    val_main_v0 (F := Ideal) x0 (ix4 n k r c)
      = ((x0 : S16x2x1024x1024.Idx → EReal) (ix4 n k r c)
          - max ((x0 : S16x2x1024x1024.Idx → EReal) (ix4 n 0 r c)) ((x0 : S16x2x1024x1024.Idx → EReal) (ix4 n 1 r c)))
        - Cert.Spec.logS ((x0 : S16x2x1024x1024.Idx → EReal) (ix4 n 0 r c)) ((x0 : S16x2x1024x1024.Idx → EReal) (ix4 n 1 r c)) := by
  rw [val_main_v0_apply, val_main_call0_v10_apply, val_main_call0_v9_apply, val_main_call0_v8_apply, Ideal.subf_def,
    Ideal.hostUnary_log_def, sub_stage]
  have e : idx_main_call0_v8 (idx_main_call0_v10 (ix4 n k r c)) = ix3 n r c :=
    funext fun a => Fin.ext (by match a with | ⟨0, _⟩ => rfl | ⟨1, _⟩ => rfl | ⟨2, _⟩ => rfl)
  rw [e, sum_stage]
  rfl

/-! ## The clipped label -/

/-- The label clipped to {0, 1} is 0 or 1. -/
theorem clip01_cases (t : BitVec 32) : Cert.Spec.clip01 t = 0#32 ∨ Cert.Spec.clip01 t = 1#32 := by
  unfold Cert.Spec.clip01 IntOp.minsi IntOp.maxsi
  by_cases h0 : t.slt 0#32 = true
  · left
    rw [if_pos h0]
    decide
  · rw [if_neg h0]
    by_cases h1 : (1#32).slt t = true
    · right; rw [if_pos h1]
    · rw [if_neg h1]
      have a0 : ¬ t.toInt < 0 := by simpa [BitVec.slt] using h0
      have a1 : ¬ 1 < t.toInt := by simpa [BitVec.slt] using h1
      have hc : t.toInt = 0 ∨ t.toInt = 1 := by omega
      rcases hc with hc | hc
      · left; exact BitVec.eq_of_toInt_eq (by rw [hc]; rfl)
      · right; exact BitVec.eq_of_toInt_eq (by rw [hc]; rfl)

/-- The clip stage at a pixel. -/
theorem clip_stage (x1 : (⟨S16x1024x1024, .i32⟩ : BufTy).Contents (Elt Ideal)) (i : S16x1024x1024.Idx) :
    val_main_v3 (F := Ideal) x1 i = Cert.Spec.clip01 ((x1 : S16x1024x1024.Idx → BitVec 32) i) := by
  rw [val_main_v3_apply, val_main_call1_v4_apply, val_main_call1_v3_apply, val_main_c_1_apply, val_main_call1_v2_apply,
    val_main_call1_v1_apply, val_main_call1_v0_apply, val_main_c_0_apply]
  rfl

/-- The start index of the take along the class axis, at a pixel, is the clipped label: it is never negative, so the wrap
    of a negative index leaves it as it is. -/
theorem start_stage4 (x1 : (⟨S16x1024x1024, .i32⟩ : BufTy).Contents (Elt Ideal)) (n : Fin 16) (u : Fin 1) (r c : Fin 1024) :
    val_main_call2_v4 (F := Ideal) x1 (ix4 n u r c) = Cert.Spec.clip01 ((x1 : S16x1024x1024.Idx → BitVec 32) (ix3 n r c)) := by
  have e : idx_main_v4 (ix4 n u r c) = ix3 n r c :=
    funext fun a => Fin.ext (by match a with | ⟨0, _⟩ => rfl | ⟨1, _⟩ => rfl | ⟨2, _⟩ => rfl)
  rw [val_main_call2_v4_apply, val_main_call2_v1_apply, val_main_call2_v0_apply, val_main_call2_c_apply, val_main_v4_apply, e,
    clip_stage]
  rcases clip01_cases ((x1 : S16x1024x1024.Idx → BitVec 32) (ix3 n r c)) with h | h
  · rw [h]; rfl
  · rw [h]; rfl

/-- The same start index read through the reshape that appends the index vector's unit axis. -/
theorem start_stage (x1 : (⟨S16x1024x1024, .i32⟩ : BufTy).Contents (Elt Ideal)) (n : Fin 16) (u : Fin 1) (r c : Fin 1024) (k : Fin 1) :
    val_main_call2_v5 (F := Ideal) x1 (ix5 n u r c k) = Cert.Spec.clip01 ((x1 : S16x1024x1024.Idx → BitVec 32) (ix3 n r c)) := by
  have hu : u.val = 0 := by omega
  have hk : k.val = 0 := by omega
  have hr : r.val < 1024 := r.isLt
  have hc : c.val < 1024 := c.isLt
  have hn : n.val < 16 := n.isLt
  have e : idx_main_call2_v5 (ix5 n u r c k) = ix4 n u r c :=
    funext fun a => Fin.ext (by
      match a with
      | ⟨0, _⟩ => show ((((n.val * 1 + u.val) * 1024 + r.val) * 1024 + c.val) * 1 + k.val) / 1048576 = n.val; omega
      | ⟨1, _⟩ => show 0 = u.val; omega
      | ⟨2, _⟩ => show ((((n.val * 1 + u.val) * 1024 + r.val) * 1024 + c.val) * 1 + k.val) / 1024 % 1024 = r.val; omega
      | ⟨3, _⟩ => show ((((n.val * 1 + u.val) * 1024 + r.val) * 1024 + c.val) * 1 + k.val) % 1024 = c.val; omega)
  rw [val_main_call2_v5_apply, e, start_stage4]

/-! ## The start index is in range -/

/-- A pixel of the start indices with the unit coordinate put back on the index vector's axis. -/
theorem lift_unit (h : S16x1x1024x1024x1.Reduces [4] S16x1x1024x1024) (n : Fin 16) (u : Fin 1) (r c : Fin 1024) (k : Fin 1) :
    h.lift (ix4 n u r c) k = ix5 n u r c k := by
  funext a; apply Fin.ext
  match a with
  | ⟨0, _⟩ => rfl
  | ⟨1, _⟩ => rfl
  | ⟨2, _⟩ => rfl
  | ⟨3, _⟩ => rfl
  | ⟨4, _⟩ => rfl

/-- The bit "0 ≤ index ≤ 1" at a pixel is 1: the index is the clipped label. -/
theorem inrange_bit (x1 : (⟨S16x1024x1024, .i32⟩ : BufTy).Contents (Elt Ideal)) (n : Fin 16) (u : Fin 1) (r c : Fin 1024) (k : Fin 1) :
    val_main_call2_v11 (F := Ideal) x1 (ix5 n u r c k) = 1#1 := by
  rw [val_main_call2_v11_apply, val_main_call2_v7_apply, val_main_call2_v10_apply, val_main_call2_v6_apply, val_main_call2_c_2_apply,
    val_main_call2_v9_apply, val_main_call2_v8_apply, val_main_call2_c_1_apply, start_stage]
  rcases clip01_cases ((x1 : S16x1024x1024.Idx → BitVec 32) (ix3 n r c)) with h | h
  · rw [h]; rfl
  · rw [h]; rfl

/-- The fold of a conjunction from 1 over a one-entry axis is the entry. -/
theorem fold_and_one (f : Fin 1 → BitVec 1) :
    (Finset.univ : Finset (Fin 1)).fold IntOp.andi 1#1 f = f 0 := by
  have hu : (Finset.univ : Finset (Fin 1)) = {0} := by decide
  rw [hu, Finset.fold_singleton]
  show f 0 &&& 1#1 = f 0
  rcases BitVec.eq_zero_or_eq_one (f 0) with h | h <;> rw [h] <;> rfl

/-- The conjunction of that bit over the one-entry index vector is 1. -/
theorem inrange_stage (x1 : (⟨S16x1024x1024, .i32⟩ : BufTy).Contents (Elt Ideal)) (n : Fin 16) (u : Fin 1) (r c : Fin 1024) :
    val_main_call2_v12 (F := Ideal) x1 (ix4 n u r c) = 1#1 := by
  have h : S16x1x1024x1024x1.Reduces [4] S16x1x1024x1024 := by decide
  unfold val_main_call2_v12
  refine (Host.reduce_eq_fold_single IntOp.andi _ _ _ h _ (ix4 n u r c)).trans ?_
  rw [val_main_call2_c_3_apply]
  refine (fold_and_one _).trans ?_
  show val_main_call2_v11 (F := Ideal) x1 (h.lift (ix4 n u r c) (0 : Fin 1)) = 1#1
  rw [lift_unit, inrange_bit]

/-! ## The take along the class axis -/

/-- The take's dimension numbers: the image, row and column axes batch, the class axis is indexed and collapsed. -/
abbrev gd : GatherDims S16x2x1024x1024 S16x1x1024x1024x1 S16x1x1024x1024 :=
  gather_S16x2x1024x1024_S16x1x1024x1024x1_S16x1x1024x1024_n_1_023_023_1_4_1111

/-- The operand index of the batched gather at a pixel: the batching axes copy the pixel's coordinates, the class axis takes
    the start index read signed and clamped to [0, 1]. -/
theorem gather_idx (idx : IVec S16x1x1024x1024x1 32) (n : Fin 16) (u : Fin 1) (r c : Fin 1024) :
    gd.operandIdx (ix4 n u r c) idx
      = ix4 n (⟨min (idx (ix5 n u r c (0 : Fin 1))).toInt.toNat 1, by omega⟩ : Fin 2) r c := by
  funext a; apply Fin.ext
  match a with
  | ⟨0, _⟩ =>
    show gd.start (ix4 n u r c) idx (0 : Fin 4) + gd.batchCoord (ix4 n u r c) (0 : Fin 4)
      + gd.offCoord (ix4 n u r c) (0 : Fin 4) = n.val
    rw [GatherDims.start_batching _ _ _ _ (by decide), GatherDims.offCoord_eq_zero _ _ _ (by decide), Nat.zero_add, Nat.add_zero]
    rfl
  | ⟨1, _⟩ =>
    show gd.start (ix4 n u r c) idx (1 : Fin 4) + gd.batchCoord (ix4 n u r c) (1 : Fin 4)
      + gd.offCoord (ix4 n u r c) (1 : Fin 4) = min (idx (ix5 n u r c (0 : Fin 1))).toInt.toNat 1
    rw [GatherDims.batchCoord_eq_zero _ _ _ (by decide), GatherDims.offCoord_eq_zero _ _ _ (by decide), Nat.add_zero]
    unfold GatherDims.start
    rw [dif_pos (by decide)]
    have hsi : gd.siIdx (ix4 n u r c) ⟨List.idxOf (1 : Fin 4) gd.startIndexMap, List.idxOf_lt_length_iff.2 (by decide)⟩
        = ix5 n u r c (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    show gd.start (ix4 n u r c) idx (2 : Fin 4) + gd.batchCoord (ix4 n u r c) (2 : Fin 4)
      + gd.offCoord (ix4 n u r c) (2 : Fin 4) = r.val
    rw [GatherDims.start_batching _ _ _ _ (by decide), GatherDims.offCoord_eq_zero _ _ _ (by decide), Nat.zero_add, Nat.add_zero]
    rfl
  | ⟨3, _⟩ =>
    show gd.start (ix4 n u r c) idx (3 : Fin 4) + gd.batchCoord (ix4 n u r c) (3 : Fin 4)
      + gd.offCoord (ix4 n u r c) (3 : Fin 4) = c.val
    rw [GatherDims.start_batching _ _ _ _ (by decide), GatherDims.offCoord_eq_zero _ _ _ (by decide), Nat.zero_add, Nat.add_zero]
    rfl

/-- The gather at a pixel reads the log-softmax at the class the clipped label names. -/
theorem take_stage (x0 : (⟨S16x2x1024x1024, .f32⟩ : BufTy).Contents (Elt Ideal)) (x1 : (⟨S16x1024x1024, .i32⟩ : BufTy).Contents (Elt Ideal))
    (n : Fin 16) (u : Fin 1) (r c : Fin 1024) (k : Fin 2)
    (hk : min (Cert.Spec.clip01 ((x1 : S16x1024x1024.Idx → BitVec 32) (ix3 n r c))).toInt.toNat 1 = k.val) :
    val_main_call2_v13 (F := Ideal) x0 x1 (ix4 n u r c) = val_main_v0 (F := Ideal) x0 (ix4 n k r c) := by
  show val_main_v0 (F := Ideal) x0 (gd.operandIdx (ix4 n u r c) (val_main_call2_v5 (F := Ideal) x1)) = _
  rw [gather_idx]
  refine congrArg (fun k' : Fin 2 => val_main_v0 (F := Ideal) x0 (ix4 n k' r c)) (Fin.ext ?_)
  show min (val_main_call2_v5 (F := Ideal) x1 (ix5 n u r c (0 : Fin 1))).toInt.toNat 1 = k.val
  rw [start_stage, hk]

/-- The taken value at a pixel: the shifted logit of the clipped label minus the logarithm of the sum. -/
theorem picked_stage (x0 : (⟨S16x2x1024x1024, .f32⟩ : BufTy).Contents (Elt Ideal)) (x1 : (⟨S16x1024x1024, .i32⟩ : BufTy).Contents (Elt Ideal))
    (n : Fin 16) (u : Fin 1) (r c : Fin 1024) :
    val_main_v5 (F := Ideal) x0 x1 (ix4 n u r c)
      = (Cert.Spec.pick ((x0 : S16x2x1024x1024.Idx → EReal) (ix4 n 0 r c)) ((x0 : S16x2x1024x1024.Idx → EReal) (ix4 n 1 r c))
            ((x1 : S16x1024x1024.Idx → BitVec 32) (ix3 n r c))
          - max ((x0 : S16x2x1024x1024.Idx → EReal) (ix4 n 0 r c)) ((x0 : S16x2x1024x1024.Idx → EReal) (ix4 n 1 r c)))
        - Cert.Spec.logS ((x0 : S16x2x1024x1024.Idx → EReal) (ix4 n 0 r c)) ((x0 : S16x2x1024x1024.Idx → EReal) (ix4 n 1 r c)) := by
  rw [val_main_v5_apply, inrange_stage, select_one]
  unfold Cert.Spec.pick
  rcases clip01_cases ((x1 : S16x1024x1024.Idx → BitVec 32) (ix3 n r c)) with h | h
  · rw [take_stage x0 x1 n u r c (0 : Fin 2) (by rw [h]; rfl), lsm_stage, if_pos h]
  · rw [take_stage x0 x1 n u r c (1 : Fin 2) (by rw [h]; rfl), lsm_stage, if_neg (by rw [h]; decide)]

/-! ## The mask of the ignored label -/

/-- The bit of "not equal", decided. -/
theorem cmpi_ne_of_ne {x y : BitVec 32} (h : x ≠ y) : IntOp.cmpi .ne x y = 1#1 := by
  show BitVec.ofBool (x != y) = 1#1
  rw [bne_iff_ne.mpr h]; rfl

theorem cmpi_ne_self (x : BitVec 32) : IntOp.cmpi .ne x x = 0#1 := by
  show BitVec.ofBool (x != x) = 0#1
  rw [bne_self_eq_false]; rfl

/-- The masked cross-entropy stage at a pixel is the second spelling of the cross-entropy, of the pixel's two logits and label. -/
theorem ce_stage (x0 : (⟨S16x2x1024x1024, .f32⟩ : BufTy).Contents (Elt Ideal)) (x1 : (⟨S16x1024x1024, .i32⟩ : BufTy).Contents (Elt Ideal))
    (j : S16x1024x1024.Idx) :
    val_main_v8 (F := Ideal) x0 x1 j
      = Cert.Spec.ceR ((x0 : S16x2x1024x1024.Idx → EReal) (ix4 (j 0) 0 (j 1) (j 2))) ((x0 : S16x2x1024x1024.Idx → EReal) (ix4 (j 0) 1 (j 1) (j 2)))
          ((x1 : S16x1024x1024.Idx → BitVec 32) j) := by
  obtain ⟨n, r, c, rfl⟩ : ∃ (n : Fin 16) (r c : Fin 1024), j = ix3 n r c := ⟨j 0, j 1, j 2, eq_ix3 j⟩
  show val_main_v8 (F := Ideal) x0 x1 (ix3 n r c)
      = Cert.Spec.ceR ((x0 : S16x2x1024x1024.Idx → EReal) (ix4 n 0 r c)) ((x0 : S16x2x1024x1024.Idx → EReal) (ix4 n 1 r c))
          ((x1 : S16x1024x1024.Idx → BitVec 32) (ix3 n r c))
  have hr : r.val < 1024 := r.isLt
  have hc : c.val < 1024 := c.isLt
  have hn : n.val < 16 := n.isLt
  have e : idx_main_v6 (ix3 n r c) = ix4 n (0 : Fin 1) r c :=
    funext fun a => Fin.ext (by
      match a with
      | ⟨0, _⟩ => show ((n.val * 1024 + r.val) * 1024 + c.val) / 1048576 = n.val; omega
      | ⟨1, _⟩ => rfl
      | ⟨2, _⟩ => show ((n.val * 1024 + r.val) * 1024 + c.val) / 1024 % 1024 = r.val; omega
      | ⟨3, _⟩ => show ((n.val * 1024 + r.val) * 1024 + c.val) % 1024 = c.val; omega)
  rw [val_main_v8_apply, val_main_v2_apply, val_main_v1_apply, val_main_c_apply, val_main_v7_apply, val_main_v6_apply, e,
    picked_stage, val_main_call3_v1_apply, val_main_call3_v0_apply, val_main_cst_apply, Ideal.ofBits_def, Ideal.ofBits_zero_f32,
    Ideal.hostNegf_def, Ideal.negf_def]
  unfold Cert.Spec.ceR
  by_cases h : (x1 : S16x1024x1024.Idx → BitVec 32) (ix3 n r c) ≠ 255#32
  · rw [cmpi_ne_of_ne h, select_one, if_pos h]
  · have h' : (x1 : S16x1024x1024.Idx → BitVec 32) (ix3 n r c) = 255#32 := not_not.mp h
    rw [if_neg h, h', cmpi_ne_self, select_zero]

end Cert.ReferenceIdeal.RefPixel

end
-- ==== Proof.RefValue.lean ====
/-
  The reference program's result is the loss summed over all pixels: its stages read one at a time, the window
  reductions as dilation and erosion, the take along the class axis as the logit of the clipped label.
-/
import proofs.«408372_j81527069213368_1_alg».proof.Proof.RefImports
import proofs.«408372_j81527069213368_1_alg».proof.Proof.Spec
import proofs.«408372_j81527069213368_1_alg».proof.Proof.RefWindow
import proofs.«408372_j81527069213368_1_alg».proof.Proof.RefPixel
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP

/-- The indicator stage: the conversion of the bit "label = 1" is 1 at the label 1 and 0 elsewhere. -/
theorem road_stage (x1 : (⟨S16x1024x1024, .i32⟩ : BufTy).Contents (Elt Ideal)) (j : S16x1024x1024.Idx) :
    val_main_v11 (F := Ideal) x1 j = Cert.Spec.road ((x1 : S16x1024x1024.Idx → BitVec 32) j) := by
  rw [val_main_v11_apply, val_main_v10_apply, val_main_v9_apply, val_main_c_2_apply]
  unfold Cert.Spec.road
  by_cases h : (x1 : S16x1024x1024.Idx → BitVec 32) j = 1#32
  · rw [if_pos h, h]
    show (((IntOp.cmpi .eq (1#32) (1#32)).toNat : ℝ) : EReal) = 1
    simp [IntOp.cmpi]
  · rw [if_neg h]
    show (((IntOp.cmpi .eq ((x1 : S16x1024x1024.Idx → BitVec 32) j) (1#32)).toNat : ℝ) : EReal) = 0
    simp [IntOp.cmpi, h]

/-- The validity stage: the conversion of the bit "label ≠ 255" is 1 at a valid label and 0 at the ignored one. -/
theorem valid_stage (x1 : (⟨S16x1024x1024, .i32⟩ : BufTy).Contents (Elt Ideal)) (j : S16x1024x1024.Idx) :
    val_main_v22 (F := Ideal) x1 j = Cert.Spec.validf ((x1 : S16x1024x1024.Idx → BitVec 32) j) := by
  rw [val_main_v22_apply, val_main_v2_apply, val_main_v1_apply, val_main_c_apply]
  unfold Cert.Spec.validf
  by_cases h : (x1 : S16x1024x1024.Idx → BitVec 32) j = 255#32
  · rw [if_neg (not_not.mpr h), h]
    show (((IntOp.cmpi .ne (255#32) (255#32)).toNat : ℝ) : EReal) = 0
    simp [IntOp.cmpi]
  · rw [if_pos h]
    show (((IntOp.cmpi .ne ((x1 : S16x1024x1024.Idx → BitVec 32) j) (255#32)).toNat : ℝ) : EReal) = 1
    simp [IntOp.cmpi, h]

/-- The start of the window maximum is the bottom of the extended reals: the word of minus infinity. -/
theorem bot_init (i : S_.Idx) : val_main_v12 (F := Ideal) i = ⊥ := by
  rw [val_main_v12_apply, val_main_cst_3_apply]
  simp [Ideal.ofBits, Ideal.ieee]

/-- The start of the window minimum is the top of the extended reals: the word of plus infinity. -/
theorem top_init (i : S_.Idx) : val_main_v14 (F := Ideal) i = ⊤ := by
  rw [val_main_v14_apply, val_main_cst_4_apply]
  simp [Ideal.ofBits, Ideal.ieee]

/-- The window maximum stage is the dilation of the label's indicator picture: the window lemma reads the fold as the
    dilation of the indicator stage's image, and that image is the indicator picture pixel by pixel. -/
theorem dil_stage (x1 : (⟨S16x1024x1024, .i32⟩ : BufTy).Contents (Elt Ideal)) (j : S16x1024x1024.Idx) :
    val_main_v13 (F := Ideal) x1 j = Cert.Spec.dil (x1 : S16x1024x1024.Idx → BitVec 32) (j 0) (j 1) (j 2) := by
  unfold val_main_v13
  refine (Cert.RefWindow.reduceWindow_max (val_main_v11 (F := Ideal) x1) _ bot_init _ _ j).trans ?_
  unfold Cert.Spec.dil Cert.Spec.roadImg
  exact congrArg (fun f => Cert.Spec.dilOf f (j 1) (j 2))
    (funext fun r => funext fun c => road_stage x1 (ix3 (j 0) r c))

/-- The window minimum stage is the erosion of the label's indicator picture. -/
theorem ero_stage (x1 : (⟨S16x1024x1024, .i32⟩ : BufTy).Contents (Elt Ideal)) (j : S16x1024x1024.Idx) :
    val_main_v15 (F := Ideal) x1 j = Cert.Spec.ero (x1 : S16x1024x1024.Idx → BitVec 32) (j 0) (j 1) (j 2) := by
  unfold val_main_v15
  refine (Cert.RefWindow.reduceWindow_min (val_main_v11 (F := Ideal) x1) _ top_init _ _ j).trans ?_
  unfold Cert.Spec.ero Cert.Spec.roadImg
  exact congrArg (fun f => Cert.Spec.eroOf f (j 1) (j 2))
    (funext fun r => funext fun c => road_stage x1 (ix3 (j 0) r c))

/-- The weight stage: one plus the difference of dilation and erosion times one, the two ones being the literal 1.0. -/
theorem weight_stage (x1 : (⟨S16x1024x1024, .i32⟩ : BufTy).Contents (Elt Ideal)) (j : S16x1024x1024.Idx) :
    val_main_v20 (F := Ideal) x1 j = Cert.Spec.weight (x1 : S16x1024x1024.Idx → BitVec 32) (j 0) (j 1) (j 2) := by
  rw [val_main_v20_apply, val_main_v19_apply, val_main_cst_6_apply, val_main_v18_apply, val_main_v17_apply,
    val_main_cst_5_apply, val_main_v16_apply, dil_stage, ero_stage]
  rfl

/-- The weighted cross-entropy stage at a pixel. -/
theorem wce_stage (x0 : (⟨S16x2x1024x1024, .f32⟩ : BufTy).Contents (Elt Ideal)) (x1 : (⟨S16x1024x1024, .i32⟩ : BufTy).Contents (Elt Ideal))
    (j : S16x1024x1024.Idx) :
    val_main_v21 (F := Ideal) x0 x1 j
      = Cert.Spec.wce (x0 : S16x2x1024x1024.Idx → EReal) (x1 : S16x1024x1024.Idx → BitVec 32) j := by
  rw [val_main_v21_apply, Cert.ReferenceIdeal.RefPixel.ce_stage, weight_stage]
  rfl

/-- The count of valid pixels: zero plus the sum of the validity stage over all pixels. -/
theorem den_stage (x1 : (⟨S16x1024x1024, .i32⟩ : BufTy).Contents (Elt Ideal)) (i : S_.Idx) :
    val_main_v23 (F := Ideal) x1 i = ∑ j : S16x1024x1024.Idx, Cert.Spec.validf ((x1 : S16x1024x1024.Idx → BitVec 32) j) := by
  rw [val_main_v23_apply, val_main_cst_7_apply, Ideal.ofBits_def, Ideal.ofBits_zero_f32, zero_add]
  exact Finset.sum_congr rfl fun j _ => valid_stage x1 j

/-- The numerator of the valid branch: zero plus the sum of the weighted cross-entropy times the validity indicator. -/
theorem num_stage (x0 : (⟨S16x2x1024x1024, .f32⟩ : BufTy).Contents (Elt Ideal)) (x1 : (⟨S16x1024x1024, .i32⟩ : BufTy).Contents (Elt Ideal))
    (i : S_.Idx) :
    val_main_v26 (F := Ideal) x0 x1 i
      = ∑ j : S16x1024x1024.Idx, Cert.Spec.wce (x0 : S16x2x1024x1024.Idx → EReal) (x1 : S16x1024x1024.Idx → BitVec 32) j
          * Cert.Spec.validf ((x1 : S16x1024x1024.Idx → BitVec 32) j) := by
  rw [val_main_v26_apply, val_main_cst_9_apply, Ideal.ofBits_def, Ideal.ofBits_zero_f32, zero_add]
  refine Finset.sum_congr rfl fun j _ => ?_
  rw [val_main_v25_apply, wce_stage, valid_stage]
  rfl

/-- The numerator of the no-valid-pixel branch: zero plus the sum of the weighted cross-entropy. -/
theorem alt_stage (x0 : (⟨S16x2x1024x1024, .f32⟩ : BufTy).Contents (Elt Ideal)) (x1 : (⟨S16x1024x1024, .i32⟩ : BufTy).Contents (Elt Ideal))
    (i : S_.Idx) :
    val_main_v29 (F := Ideal) x0 x1 i
      = ∑ j : S16x1024x1024.Idx, Cert.Spec.wce (x0 : S16x2x1024x1024.Idx → EReal) (x1 : S16x1024x1024.Idx → BitVec 32) j := by
  rw [val_main_v29_apply, val_main_cst_11_apply, Ideal.ofBits_def, Ideal.ofBits_zero_f32, zero_add]
  exact Finset.sum_congr rfl fun j _ => wce_stage x0 x1 j

/-- The last stage of the reference, at its one index, is the loss summed over all pixels. -/
theorem ref_eq (x0 : (⟨S16x2x1024x1024, .f32⟩ : BufTy).Contents (Elt Ideal)) (x1 : (⟨S16x1024x1024, .i32⟩ : BufTy).Contents (Elt Ideal))
    (i : S_.Idx) :
    val_main_v31 (F := Ideal) x0 x1 i = Cert.Spec.LR (x0 : S16x2x1024x1024.Idx → EReal) (x1 : S16x1024x1024.Idx → BitVec 32) := by
  rw [val_main_v31_apply, val_main_v24_apply, val_main_v28_apply, val_main_v30_apply, val_main_v27_apply,
    den_stage, num_stage, alt_stage, val_main_cst_8_apply, val_main_cst_10_apply, val_main_cst_12_apply,
    Ideal.ofBits_def, Ideal.ofBits_zero_f32]
  rfl

end Cert.ReferenceIdeal.RefValue

end
-- ==== Proof.Algebra.lean ====
/-
  The two spellings of the loss agree on finite logits: the cross-entropy `(M + log S) − x_t` is `−((x_t − M) − log S)`
  when the logits are real numbers; the sum over all pixels is the sum over images, tiles of 256 rows, rows of a tile and
  columns; and multiplying a pixel's weighted cross-entropy by the validity indicator changes nothing, since an invalid
  pixel's cross-entropy is already zero.
-/
import proofs.«408372_j81527069213368_1_alg».proof.Proof.Spec

noncomputable section

open scoped BigOperators

namespace Cert.Algebra

open Idealize.ShloMosaic Idealize.ShloMosaic.ValueIdx Cert.Spec

/-! ## Re-indexing the sum over all pixels -/

/-- The labels' index set is the product of its three coordinate ranges … -/
def idxEquiv3 : ST.Idx ≃ Fin 16 × Fin 1024 × Fin 1024 where
  toFun j := (j 0, j 1, j 2)
  invFun p := ix3 p.1 p.2.1 p.2.2
  left_inv j := (eq_ix3 j).symm
  right_inv _ := rfl

/-- … so a sum over it is the triple sum over image, row and column. -/
theorem sum_idx3 {M : Type*} [AddCommMonoid M] (f : ST.Idx → M) :
    ∑ j, f j = ∑ n : Fin 16, ∑ r : Fin 1024, ∑ c : Fin 1024, f (ix3 n r c) := by
  rw [← Equiv.sum_comp idxEquiv3.symm f, Fintype.sum_prod_type]
  refine Finset.sum_congr rfl fun n _ => ?_
  rw [Fintype.sum_prod_type]
  rfl

/-- A row of the image is a tile of 256 rows and a row inside it: `r = 256 · (r / 256) + r % 256`. -/
def rowEquiv : Fin 4 × Fin 256 ≃ Fin 1024 where
  toFun p := row p.1 p.2
  invFun r := (⟨r.val / 256, by omega⟩, ⟨r.val % 256, by omega⟩)
  left_inv p := by
    obtain ⟨h, r⟩ := p
    refine Prod.ext (Fin.ext ?_) (Fin.ext ?_)
    · show (256 * h.val + r.val) / 256 = h.val
      omega
    · show (256 * h.val + r.val) % 256 = r.val
      omega
  right_inv r := by
    refine Fin.ext ?_
    show 256 * (r.val / 256) + r.val % 256 = r.val
    omega

/-- A sum over the 1024 rows is the sum over the four tiles of the sums over a tile's 256 rows. -/
theorem sum_rows {M : Type*} [AddCommMonoid M] (g : Fin 1024 → M) :
    ∑ r : Fin 1024, g r = ∑ h : Fin 4, ∑ r : Fin 256, g (row h r) := by
  rw [← Equiv.sum_comp rowEquiv g, Fintype.sum_prod_type]
  rfl

/-- A sum over all pixels is the sum over images, tiles, rows of a tile and columns. -/
theorem sum_pixels {M : Type*} [AddCommMonoid M] (f : ST.Idx → M) :
    ∑ j, f j = ∑ n : Fin 16, ∑ h : Fin 4, ∑ r : Fin 256, ∑ c : Fin 1024, f (ix3 n (row h r) c) := by
  rw [sum_idx3]
  refine Finset.sum_congr rfl fun n _ => ?_
  exact sum_rows fun r => ∑ c : Fin 1024, f (ix3 n r c)

/-! ## The two spellings of the cross-entropy -/

/-- On real logits the two spellings are the same real number: with `m = max a b`, `l = log (exp (a − m) + exp (b − m))`
    (the sum of two exponentials is positive, so the logarithm is the real one) and `p` the picked logit, both are the
    coercion of `(m + l) − p = −((p − m) − l)`. -/
theorem ceK_eq_ceR (a b : ℝ) (t : BitVec 32) : ceK (a : EReal) (b : EReal) t = ceR (a : EReal) (b : EReal) t := by
  unfold ceK ceR
  split_ifs with ht
  · have hM : max (a : EReal) (b : EReal) = ((max a b : ℝ) : EReal) :=
      (EReal.coe_strictMono.monotone.map_max).symm
    have hpos : ¬ (Real.exp (a - max a b) + Real.exp (b - max a b) ≤ 0) :=
      not_le.mpr (add_pos (Real.exp_pos _) (Real.exp_pos _))
    have hS : logS (a : EReal) (b : EReal)
        = ((Real.log (Real.exp (a - max a b) + Real.exp (b - max a b)) : ℝ) : EReal) := by
      unfold logS
      rw [hM, ← EReal.coe_sub, ← EReal.coe_sub, Ideal.exp_coe, Ideal.exp_coe, ← EReal.coe_add, Ideal.log_coe,
        if_neg hpos]
    obtain ⟨p, hp⟩ : ∃ p : ℝ, pick (a : EReal) (b : EReal) t = (p : EReal) := by
      unfold pick
      split_ifs
      exacts [⟨a, rfl⟩, ⟨b, rfl⟩]
    rw [hM, hS, hp, ← EReal.coe_add, ← EReal.coe_sub, ← EReal.coe_sub, ← EReal.coe_sub, ← EReal.coe_neg]
    congr 1
    ring
  · rfl

/-- An invalid pixel's weighted cross-entropy is zero, so the validity indicator is absorbed. -/
theorem wce_mul_validf (X : SX.Idx → EReal) (T : ST.Idx → BitVec 32) (j : ST.Idx) :
    wce X T j * validf (T j) = wce X T j := by
  unfold wce validf ceR
  by_cases ht : T j = 255#32
  · rw [if_neg (not_not.mpr ht), if_neg (not_not.mpr ht), zero_mul, zero_mul]
  · rw [if_pos ht, if_pos ht, mul_one]

/-! ## The loss -/

/-- The count of valid pixels, tile by tile and all at once. -/
theorem denK_eq (T : ST.Idx → BitVec 32) : denK T = ∑ j : ST.Idx, validf (T j) := by
  rw [sum_pixels fun j => validf (T j)]
  rfl

/-- The weighted cross-entropy, tile by tile in the first spelling and all at once in the second. -/
theorem numK_eq (X : SX.Idx → EReal) (T : ST.Idx → BitVec 32) (hX : ∀ i, ∃ r : ℝ, X i = (r : EReal)) :
    numK X T = ∑ j : ST.Idx, wce X T j := by
  rw [sum_pixels fun j => wce X T j]
  unfold numK pnum
  refine Finset.sum_congr rfl fun n _ => Finset.sum_congr rfl fun h _ => Finset.sum_congr rfl fun r _ =>
    Finset.sum_congr rfl fun c _ => ?_
  obtain ⟨a, ha⟩ := hX (ix4 n 0 (row h r) c)
  obtain ⟨b, hb⟩ := hX (ix4 n 1 (row h r) c)
  show ceK (X (ix4 n 0 (row h r) c)) (X (ix4 n 1 (row h r) c)) (T (ix3 n (row h r) c)) * weight T n (row h r) c
    = ceR (X (ix4 n 0 (row h r) c)) (X (ix4 n 1 (row h r) c)) (T (ix3 n (row h r) c)) * weight T n (row h r) c
  rw [ha, hb, ceK_eq_ceR]

/-- The loss summed tile by tile is the loss summed over all pixels, when every logit is a real number. -/
theorem LK_eq_LR (X : SX.Idx → EReal) (T : ST.Idx → BitVec 32) (hX : ∀ i, ∃ r : ℝ, X i = (r : EReal)) :
    LK X T = LR X T := by
  unfold LK LR
  rw [numK_eq X T hX, denK_eq T, Finset.sum_congr rfl fun j _ => wce_mul_validf X T j]

end Cert.Algebra

end
-- ==== Proof.Finite.lean ====
/-
  The precondition read: every logit is a real number. The predicate is the conjunction over all entries of
  `|x| < +∞`; an extended real whose absolute value is below `⊤` is neither `⊤` nor `⊥`.
-/
import proofs.«408372_j81527069213368_1_alg».proof.Proof.Gen.Pre_finite_inputs
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- An extended real with `max x (−x) < ⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Where the finiteness predicate is all ones, every entry of the float argument is a real number. -/
theorem finite_of_pre [Cert.Pre_finite_inputs.Facts] (x : FVec Ideal S16x2x1024x1024 .f32) (t : IVec S16x1024x1024 32)
    (h : Cert.Pre_finite_inputs.fn (F := Ideal) x t = fun _ => 1#1) : ∀ i, ∃ r : ℝ, x i = (r : EReal) := by
  intro i
  have h0 := congrFun h ix0
  dsimp only [Cert.Pre_finite_inputs.fn] at h0
  have hi := Host.reduce_andi_all _ _ _ _ _ h0 i
  have hlt : max (x i) (-(x i)) < ⊤ := by
    have e : Ideal.cmp .olt (max (x i) (-(x i))) (Ideal.ofBits .f32 0x7F800000#32) = 1#1 := hi
    have hinf : Ideal.ofBits .f32 0x7F800000#32 = ⊤ := by simp [Ideal.ofBits, Ideal.ieee]
    rw [hinf] at e
    by_contra hn
    simp [Ideal.cmp, hn] at e
  exact real_of_abs_lt_top _ hlt

end Cert.Finite

end
-- ==== Proof.lean ====
/-
  The certificate's claims assembled.

  Both word-level and idealized kernel programs run by their generated frames. The idealized kernel's run ends with the
  result buffer at the loss summed tile by tile (the first region leaves the boundary weight map, the second each tile's
  weighted cross-entropy sum and valid-pixel count, the host operations the loss of those); the idealized reference's run
  ends with the loss summed over all pixels at once. On finite logits, which the precondition gives, the two are one
  extended real: the per-pixel cross-entropy `(M + log S) − x_t` is `−((x_t − M) − log S)` over the reals, sums may be
  regrouped, and the validity indicator multiplies a term that is already zero where it vanishes.
-/
import proofs.«408372_j81527069213368_1_alg».proof.Defs
import proofs.«408372_j81527069213368_1_alg».proof.Proof.Gen.Kernel
import proofs.«408372_j81527069213368_1_alg».proof.Proof.Gen.Kernel.Frame
import proofs.«408372_j81527069213368_1_alg».proof.Proof.Gen.KernelIdeal
import proofs.«408372_j81527069213368_1_alg».proof.Proof.Gen.KernelIdeal.Frame
import proofs.«408372_j81527069213368_1_alg».proof.Proof.Gen.ReferenceIdeal
import proofs.«408372_j81527069213368_1_alg».proof.Proof.Gen.Pre_finite_inputs
import proofs.«408372_j81527069213368_1_alg».proof.Proof.KTail
import proofs.«408372_j81527069213368_1_alg».proof.Proof.RefValue
import proofs.«408372_j81527069213368_1_alg».proof.Proof.Algebra
import proofs.«408372_j81527069213368_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end at one extended real: the kernel's tile-by-tile loss is the reference's all-pixel loss
    on finite logits. -/
theorem algebraic : Cert.algebraic_KernelIdeal_ReferenceIdeal := by
  intro m ρ m' ρ' hpre hagree
  refine ⟨fun c => fun _ => Cert.Spec.LK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Tail.result_eq m ρ c), (h c).2⟩)
      (Cert.KernelIdeal.GenV.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v31_eq]
    funext i
    rw [Cert.ReferenceIdeal.RefValue.ref_eq, (hagree c).1, (hagree c).2]
    exact (Cert.Algebra.LK_eq_LR _ _ (Cert.Finite.finite_of_pre _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
